-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S32x4096 .f32) (main_arg1 : IVec S11008x2048 32) (main_arg2 : FVec F S11008x32 .f32) (main_arg3 : FVec F S11008x32 .f32) (main_arg4 : FVec F S11008 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S32x4096 : Shape := ⟨2, ![32, 4096]⟩
abbrev S11008x2048 : Shape := ⟨2, ![11008, 2048]⟩
abbrev S11008x32 : Shape := ⟨2, ![11008, 32]⟩
abbrev S11008 : Shape := ⟨1, ![11008]⟩
abbrev S32x2048x2 : Shape := ⟨3, ![32, 2048, 2]⟩
abbrev S32x2048x1 : Shape := ⟨3, ![32, 2048, 1]⟩
abbrev S32x2048 : Shape := ⟨2, ![32, 2048]⟩
abbrev S32x32x128 : Shape := ⟨3, ![32, 32, 128]⟩
abbrev S_ : Shape := ⟨0, ![]⟩
abbrev S32x32 : Shape := ⟨2, ![32, 32]⟩
abbrev S1x11008 : Shape := ⟨2, ![1, 11008]⟩
abbrev S32x11008 : Shape := ⟨2, ![32, 11008]⟩
abbrev S512x2048 : Shape := ⟨2, ![512, 2048]⟩
abbrev S512x32 : Shape := ⟨2, ![512, 32]⟩
abbrev S1x512 : Shape := ⟨2, ![1, 512]⟩
abbrev S32x512 : Shape := ⟨2, ![32, 512]⟩
abbrev S512x32x1 : Shape := ⟨3, ![512, 32, 1]⟩
abbrev S512x32x64 : Shape := ⟨3, ![512, 32, 64]⟩

abbrev nBuf : Space → Nat
  | .hbm => 17
  | .vmem => 13
  | .smem => 0
  | _ => 0

abbrev bufTy : (tb : Table) → Fin (tcTables nBuf tb) → BufTy
  | .hbm, ⟨0, _⟩ => ⟨S32x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S32x2048x2, .f32⟩
  | .hbm, ⟨6, _⟩ => ⟨S32x2048x1, .f32⟩
  | .hbm, ⟨7, _⟩ => ⟨S32x2048, .f32⟩
  | .hbm, ⟨8, _⟩ => ⟨S32x2048, .bf16⟩
  | .hbm, ⟨9, _⟩ => ⟨S32x2048x1, .f32⟩
  | .hbm, ⟨10, _⟩ => ⟨S32x2048, .f32⟩
  | .hbm, ⟨11, _⟩ => ⟨S32x2048, .bf16⟩
  | .hbm, ⟨12, _⟩ => ⟨S32x32x128, .f32⟩
  | .hbm, ⟨13, _⟩ => ⟨S_, .f32⟩
  | .hbm, ⟨14, _⟩ => ⟨S32x32, .f32⟩
  | .hbm, ⟨15, _⟩ => ⟨S1x11008, .f32⟩
  | .hbm, ⟨16, _⟩ => ⟨S32x11008, .f32⟩
  | .local _ .vmem, ⟨0, _⟩ => ⟨S32x2048, .bf16⟩
  | .local _ .vmem, ⟨1, _⟩ => ⟨S32x2048, .bf16⟩
  | .local _ .vmem, ⟨2, _⟩ => ⟨S512x2048, .i32⟩
  | .local _ .vmem, ⟨3, _⟩ => ⟨S512x2048, .i32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S32x32, .f32⟩
  | .local _ .vmem, ⟨9, _⟩ => ⟨S1x512, .f32⟩
  | .local _ .vmem, ⟨10, _⟩ => ⟨S1x512, .f32⟩
  | .local _ .vmem, ⟨11, _⟩ => ⟨S32x512, .f32⟩
  | .local _ .vmem, ⟨12, _⟩ => ⟨S32x512, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32x4096_S32x2048x2 : S32x4096.ShapeCasts S32x2048x2
  slices_S32x2048x2_S32x2048x1_0_0_0 : S32x2048x2.Slices ![0, 0, 0] S32x2048x1
  shapeCasts_S32x2048x1_S32x2048 : S32x2048x1.ShapeCasts S32x2048
  bitsLt_bf16_f32 : FTy.bits .bf16 < FTy.bits .f32
  slices_S32x2048x2_S32x2048x1_0_0_1 : S32x2048x2.Slices ![0, 0, 1] S32x2048x1
  shapeCasts_S32x4096_S32x32x128 : S32x4096.ShapeCasts S32x32x128
  reducesTo_S32x32x128_S32x32_d2 : S32x32x128.ReducesTo [2] S32x32
  h_S_ : 0 < S_.numel
  shapeCasts_S11008_S1x11008 : S11008.ShapeCasts S1x11008
  inb_S512x32_S512x32_0_0 : ∀ a, (![0, 0] : Fin 2 → Nat) a + S512x32.size a ≤ S512x32.size a
  h_S512x32 : 0 < S512x32.numel
  shapeCasts_S512x32_S512x32x1 : S512x32.ShapeCasts S512x32x1
  shapeCasts_S512x32x1_S512x32x1 : S512x32x1.ShapeCasts S512x32x1
  broadcasts_S512x32x1_S512x32x64 : S512x32x1.Broadcasts S512x32x64
  shapeCasts_S512x32x64_S512x2048 : S512x32x64.ShapeCasts S512x2048
  inb_S512x2048_S512x2048_0_0 : ∀ a, (![0, 0] : Fin 2 → Nat) a + S512x2048.size a ≤ S512x2048.size a
  h_S512x2048 : 0 < S512x2048.numel
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  inb_S32x512_S32x512_0_0 : ∀ a, (![0, 0] : Fin 2 → Nat) a + S32x512.size a ≤ S32x512.size a
  h_S32x512 : 0 < S32x512.numel
  dot_S32x2048_S512x2048_S32x512_1_1_0_0_n_n_wf : DotDims.WF S32x2048 S512x2048 S32x512 [1] [1] [0] [0] [] []
  dot_S32x32_S512x32_S32x512_1_1_0_0_n_n_wf : DotDims.WF S32x32 S512x32 S32x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .bf16 = 32 ∨ (Rect.block (s := S32x2048) S32x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x2048.size a
  hwx0_1 : ∀ i : grid0.Coords, EltTy.bits .bf16 = 32 ∨ (Rect.block (s := S32x2048) S32x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x2048.size a < S11008x2048.size a
  hwx0_2 : ∀ i : grid0.Coords, EltTy.bits .i32 = 32 ∨ (Rect.unit (s := S11008x2048) (fun a => cc0_transform_2 i a * S512x2048.size a) (fun a => (Pipeline.Clip.of (cc0_transform_2 i a) (S512x2048.size a) (S11008x2048.size a)).extent (S512x2048.size a)) fun a => Pipeline.Clip.inb (Pipeline.Clip.ok_of (hstart0_2 i a))).WholeWords (EltTy.packing .i32)
  hwxs0_2 : ∀ i : grid0.Coords, EltTy.bits .i32 = 32 ∨ (Rect.unit (s := S512x2048) (fun _ => 0) (fun a => (Pipeline.Clip.of (cc0_transform_2 i a) (S512x2048.size a) (S11008x2048.size a)).extent (S512x2048.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x32.size a < S11008x32.size a
  hwx0_3 : ∀ i : grid0.Coords, EltTy.bits .f32 = 32 ∨ (Rect.unit (s := S11008x32) (fun a => cc0_transform_3 i a * S512x32.size a) (fun a => (Pipeline.Clip.of (cc0_transform_3 i a) (S512x32.size a) (S11008x32.size a)).extent (S512x32.size a)) fun a => Pipeline.Clip.inb (Pipeline.Clip.ok_of (hstart0_3 i a))).WholeWords (EltTy.packing .f32)
  hwxs0_3 : ∀ i : grid0.Coords, EltTy.bits .f32 = 32 ∨ (Rect.unit (s := S512x32) (fun _ => 0) (fun a => (Pipeline.Clip.of (cc0_transform_3 i a) (S512x32.size a) (S11008x32.size a)).extent (S512x32.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x32.size a < S11008x32.size a
  hwx0_4 : ∀ i : grid0.Coords, EltTy.bits .f32 = 32 ∨ (Rect.unit (s := S11008x32) (fun a => cc0_transform_4 i a * S512x32.size a) (fun a => (Pipeline.Clip.of (cc0_transform_4 i a) (S512x32.size a) (S11008x32.size a)).extent (S512x32.size a)) fun a => Pipeline.Clip.inb (Pipeline.Clip.ok_of (hstart0_4 i a))).WholeWords (EltTy.packing .f32)
  hwxs0_4 : ∀ i : grid0.Coords, EltTy.bits .f32 = 32 ∨ (Rect.unit (s := S512x32) (fun _ => 0) (fun a => (Pipeline.Clip.of (cc0_transform_4 i a) (S512x32.size a) (S11008x32.size a)).extent (S512x32.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x512.size a < S1x11008.size a
  hwx0_6 : ∀ i : grid0.Coords, EltTy.bits .f32 = 32 ∨ (Rect.unit (s := S1x11008) (fun a => cc0_transform_6 i a * S1x512.size a) (fun a => (Pipeline.Clip.of (cc0_transform_6 i a) (S1x512.size a) (S1x11008.size a)).extent (S1x512.size a)) fun a => Pipeline.Clip.inb (Pipeline.Clip.ok_of (hstart0_6 i a))).WholeWords (EltTy.packing .f32)
  hwxs0_6 : ∀ i : grid0.Coords, EltTy.bits .f32 = 32 ∨ (Rect.unit (s := S1x512) (fun _ => 0) (fun a => (Pipeline.Clip.of (cc0_transform_6 i a) (S1x512.size a) (S1x11008.size a)).extent (S1x512.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S32x512.size a < S32x11008.size a
  hwx0_7 : ∀ i : grid0.Coords, EltTy.bits .f32 = 32 ∨ (Rect.unit (s := S32x11008) (fun a => cc0_transform_7 i a * S32x512.size a) (fun a => (Pipeline.Clip.of (cc0_transform_7 i a) (S32x512.size a) (S32x11008.size a)).extent (S32x512.size a)) fun a => Pipeline.Clip.inb (Pipeline.Clip.ok_of (hstart0_7 i a))).WholeWords (EltTy.packing .f32)
  hwxs0_7 : ∀ i : grid0.Coords, EltTy.bits .f32 = 32 ∨ (Rect.unit (s := S32x512) (fun _ => 0) (fun a => (Pipeline.Clip.of (cc0_transform_7 i a) (S32x512.size a) (S32x11008.size a)).extent (S32x512.size a)) fun a => (Nat.zero_add _).trans_le (Pipeline.Clip.extent_le (Pipeline.Clip.ok_of (hstart0_7 i a)))).WholeWords (EltTy.packing .f32)

variable [Facts₀]

def dot_S32x2048_S512x2048_S32x512_1_1_0_0_n_n : DotDims S32x2048 S512x2048 S32x512 where
  lhsContracting := [1]
  rhsContracting := [1]
  lhsNonContracting := [0]
  rhsNonContracting := [0]
  lhsBatch := []
  rhsBatch := []
  wf := dot_S32x2048_S512x2048_S32x512_1_1_0_0_n_n_wf
def dot_S32x32_S512x32_S32x512_1_1_0_0_n_n : DotDims S32x32 S512x32 S32x512 where
  lhsContracting := [1]
  rhsContracting := [1]
  lhsNonContracting := [0]
  rhsNonContracting := [0]
  lhsBatch := []
  rhsBatch := []
  wf := dot_S32x32_S512x32_S32x512_1_1_0_0_n_n_wf

abbrev win0_0 : Pipeline.Window sig grid0 :=
  Pipeline.Window.ofSpec (Memref.whole main_v3) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S32x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S512x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg2) S512x32.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_arg3) S512x32.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v8) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpecClip (Memref.whole main_v9) S1x512.size cc0_transform_6 reads0_6 false false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v10) S32x512.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x4096 : Shape := ⟨2, ![32, 4096]⟩
abbrev S11008x2048 : Shape := ⟨2, ![11008, 2048]⟩
abbrev S11008x32 : Shape := ⟨2, ![11008, 32]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x32x128 : Shape := ⟨3, ![11008, 32, 128]⟩
abbrev S11008x32x1 : Shape := ⟨3, ![11008, 32, 1]⟩
abbrev S4096x11008 : Shape := ⟨2, ![4096, 11008]⟩
abbrev S32x11008 : Shape := ⟨2, ![32, 11008]⟩
abbrev S1x11008 : Shape := ⟨2, ![1, 11008]⟩

abbrev nBuf : Space → Nat
  | .hbm => 29
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S11008x2048, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S_, .i32⟩
  | .hbm, ⟨6, _⟩ => ⟨S11008x2048, .i32⟩
  | .hbm, ⟨7, _⟩ => ⟨S11008x2048, .i32⟩
  | .hbm, ⟨8, _⟩ => ⟨S_, .i32⟩
  | .hbm, ⟨9, _⟩ => ⟨S11008x2048, .i32⟩
  | .hbm, ⟨10, _⟩ => ⟨S11008x2048, .i32⟩
  | .hbm, ⟨11, _⟩ => ⟨S11008x2048x1, .i32⟩
  | .hbm, ⟨12, _⟩ => ⟨S11008x2048x1, .i32⟩
  | .hbm, ⟨13, _⟩ => ⟨S11008x2048x2, .i32⟩
  | .hbm, ⟨14, _⟩ => ⟨S11008x4096, .i32⟩
  | .hbm, ⟨15, _⟩ => ⟨S11008x32x128, .i32⟩
  | .hbm, ⟨16, _⟩ => ⟨S11008x32x128, .f32⟩
  | .hbm, ⟨17, _⟩ => ⟨S11008x32x1, .f32⟩
  | .hbm, ⟨18, _⟩ => ⟨S11008x32x128, .f32⟩
  | .hbm, ⟨19, _⟩ => ⟨S11008x32x128, .f32⟩
  | .hbm, ⟨20, _⟩ => ⟨S11008x32x1, .f32⟩
  | .hbm, ⟨21, _⟩ => ⟨S11008x32x128, .f32⟩
  | .hbm, ⟨22, _⟩ => ⟨S11008x32x128, .f32⟩
  | .hbm, ⟨23, _⟩ => ⟨S11008x4096, .f32⟩
  | .hbm, ⟨24, _⟩ => ⟨S4096x11008, .f32⟩
  | .hbm, ⟨25, _⟩ => ⟨S32x11008, .f32⟩
  | .hbm, ⟨26, _⟩ => ⟨S1x11008, .f32⟩
  | .hbm, ⟨27, _⟩ => ⟨S32x11008, .f32⟩
  | .hbm, ⟨28, _⟩ => ⟨S32x11008, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S32x11008_0_1 : S1x11008.BroadcastsInDim S32x11008 (![0, 1] : Fin 2 → Fin S32x11008.rank)
  dot_S32x4096_S4096x11008_S32x11008_1_0_0_1_n_n_wf : DotDims.WF S32x4096 S4096x11008 S32x11008 [1] [0] [0] [1] [] []

variable [Facts₀]

def dot_S32x4096_S4096x11008_S32x11008_1_0_0_1_n_n : DotDims S32x4096 S4096x11008 S32x11008 where
  lhsContracting := [1]
  rhsContracting := [0]
  lhsNonContracting := [0]
  rhsNonContracting := [1]
  lhsBatch := []
  rhsBatch := []
  wf := dot_S32x4096_S4096x11008_S32x11008_1_0_0_1_n_n_wf

class Facts : Prop extends Facts₀ where

variable [Facts]
-- ==== Proof.BodyBits.lean ====
/-
  One grid point of the kernel, as a fact about memory.

  The body reads its seven input blocks whole — the even and the odd columns of `x`, a block of 512 rows of the
  packed weight, of the scales and of the zero points, the per-group sums of `x`, a block of 512 bias entries —
  and overwrites the whole 32 × 512 result block with one value: the arithmetic of the seven blocks (`k0_pay1`).
  So whatever the result block held, it ends holding that value (`outBlk`), and the input blocks are left as
  they were. Nothing here depends on how floats are read.
-/
import proofs.«410288_j28690381537821_3_alg».proof.Proof.Gen.Kernel.Frame
import proofs.«410288_j28690381537821_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each a whole block -/

abbrev rX : Rect S32x2048 := Rect.unit (s := S32x2048) ![0, 0] S32x2048.size inb_S32x2048_S32x2048_0_0
abbrev rW : Rect S512x2048 := Rect.unit (s := S512x2048) ![0, 0] S512x2048.size inb_S512x2048_S512x2048_0_0
abbrev rS : Rect S512x32 := Rect.unit (s := S512x32) ![0, 0] S512x32.size inb_S512x32_S512x32_0_0
abbrev rG : Rect S32x32 := Rect.unit (s := S32x32) ![0, 0] S32x32.size inb_S32x32_S32x32_0_0
abbrev rB : Rect S1x512 := Rect.unit (s := S1x512) ![0, 0] S1x512.size inb_S1x512_S1x512_0_0
abbrev rO : Rect S32x512 := Rect.unit (s := S32x512) ![0, 0] S32x512.size inb_S32x512_S32x512_0_0

/-- What the result block holds after the body, from what the seven input blocks hold: the one whole-block store
    of the body's arithmetic. -/
def outBlk (xe xo : Vec F S32x2048 .bf16) (wt : Vec F S512x2048 .i32) (sc zp : Vec F S512x32 .f32)
    (xg : Vec F S32x32 .f32) (bi : Vec F S1x512 .f32) : Vec F S32x512 .f32 :=
  View.canon [⟨rO, k0_pay1 (View.ld sc rS) (View.ld zp rS) (View.ld wt rW) (View.ld xe rX) (View.ld xo rX) (View.ld xg rG) (View.ld bi rB)⟩]

/-- The one store covers the result block. -/
theorem cover_out (p0 : Vec F S32x512 .f32) (y : S32x512.Idx) :
    ∃ pc ∈ ([⟨rO, p0⟩] : List (View.Piece (Elt F) S32x512 .f32)), y ∈ pc.1.set :=
  View.cover_of_tiled [⟨rO, p0⟩] S32x512.size (by rfl) y

set_option maxHeartbeats 1000000 in
/-- The body on whole memrefs: the seven inputs at contents `xe … bi`, the result block at anything; it ends with the
    inputs as they were and the result block at `outBlk` of them. -/
theorem sound_kernel (c : Dev nD) (E : Set ℕ) (i : grid0.Coords)
    (arg1 : Memref sig .tc .vmem S32x2048 .bf16) (harg1 : arg1.IsWhole) (arg2 : Memref sig .tc .vmem S32x2048 .bf16) (harg2 : arg2.IsWhole)
    (arg3 : Memref sig .tc .vmem S512x2048 .i32) (harg3 : arg3.IsWhole) (arg4 : Memref sig .tc .vmem S512x32 .f32) (harg4 : arg4.IsWhole)
    (arg5 : Memref sig .tc .vmem S512x32 .f32) (harg5 : arg5.IsWhole) (arg6 : Memref sig .tc .vmem S32x32 .f32) (harg6 : arg6.IsWhole)
    (arg7 : Memref sig .tc .vmem S1x512 .f32) (harg7 : arg7.IsWhole) (arg8 : Memref sig .tc .vmem S32x512 .f32) (harg8 : arg8.IsWhole)
    (xe xo : Vec F S32x2048 .bf16) (wt : Vec F S512x2048 .i32) (sc zp : Vec F S512x32 .f32) (xg : Vec F S32x32 .f32) (bi : Vec F S1x512 .f32)
    (K : PUnit → sProp 𝕄) :
    iprop(owns (c : Thread nD τ) arg1 fullShare xe ∗ owns (c : Thread nD τ) arg2 fullShare xo ∗ owns (c : Thread nD τ) arg3 fullShare wt
        ∗ owns (c : Thread nD τ) arg4 fullShare sc ∗ owns (c : Thread nD τ) arg5 fullShare zp ∗ owns (c : Thread nD τ) arg6 fullShare xg
        ∗ owns (c : Thread nD τ) arg7 fullShare bi ∗ (∃ d, owns (c : Thread nD τ) arg8 fullShare d)
        ∗ (iprop(owns (c : Thread nD τ) arg1 fullShare xe ∗ owns (c : Thread nD τ) arg2 fullShare xo ∗ owns (c : Thread nD τ) arg3 fullShare wt
            ∗ owns (c : Thread nD τ) arg4 fullShare sc ∗ owns (c : Thread nD τ) arg5 fullShare zp ∗ owns (c : Thread nD τ) arg6 fullShare xg
            ∗ owns (c : Thread nD τ) arg7 fullShare bi ∗ owns (c : Thread nD τ) arg8 fullShare (outBlk xe xo wt sc zp xg bi)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

end Cert.Kernel.Body

end
-- ==== Proof.FrameBits.lean ====
/-
  The word-level kernel's run over its 22 grid points: it terminates, faults nowhere, and leaves its arguments unchanged.

  Nothing is said of what the result array holds. At the last grid point the packed weight, the scales, the zero points
  and the bias are fetched through blocks cut at the arrays' end, and the staging buffers hold words nothing names past
  the cut; the matrix unit's product at the word level is a function of its whole operands, so what the body leaves in
  the result block is not named here (the result window is forgotten). The input windows are only read: each buffer is
  handed back as it was found, the cut ones stated on the part inside the array.
-/
import proofs.«410288_j28690381537821_3_alg».proof.Proof.BodyBits
import proofs.«410288_j28690381537821_3_alg».proof.Proof.Gen.Kernel.Frame
import proofs.«410288_j28690381537821_3_alg».proof.Proof.Gen.Kernel.Points
import proofs.«410288_j28690381537821_3_alg».proof.Proof.Gen.Kernel.Launch
import Idealize.ShloMosaic.Lib.Pipeline.Frame
import Idealize.ShloMosaic.Lib.Pipeline.FrameBody
import Idealize.ShloMosaic.Lib.Tactic

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Window `w`'s block at point `t` filled out to the staging buffer's full extent: the block on the part inside the
    array, a word nothing reads past it. -/
def fblk (c : Dev nD) (w : Fin cfg0.W) (t : Fin cfg0.N) : (cfg0.win w).block.Idx → Elt F (cfg0.win w).elt :=
  (cfg0.win w).fill (cfg0.grid.coords t) (fun _ => Classical.arbitrary _) (iblk m c w t)

theorem cut_fblk (c : Dev nD) (w : Fin cfg0.W) (t : Fin cfg0.N) :
    (cfg0.win w).cut (cfg0.grid.coords t) (fblk m c w t) = iblk m c w t :=
  (cfg0.win w).cut_fill _ _ _

/-- The result window (7) is forgotten: nothing of what the kernel leaves there is named. -/
def forgets0 : Fin 8 → Bool := fun w => w.val == 7

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fblk m c 2 t
    | ⟨3, _⟩ => fblk m c 3 t
    | ⟨4, _⟩ => fblk m c 4 t
    | ⟨5, _⟩ => iblk m c 5 t
    | ⟨6, _⟩ => fblk m c 6 t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = fblk m c 2 t := by dsimp only [dats]
theorem after0_3 (c : Dev nD) (t : Fin cfg0.N) : (dats m 0 c).after 3 t = fblk m c 3 t := by dsimp only [dats]
theorem after0_4 (c : Dev nD) (t : Fin cfg0.N) : (dats m 0 c).after 4 t = fblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = fblk m c 6 t := by dsimp only [dats]

/-! ## What the body finds in each input buffer -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_5 (c : Dev nD) (t : Fin cfg0.N) (d) : (dats m 0 c).before 5 t d = iblk m c 5 t :=
  before0_5_of m (dats m 0 c) (A_eq m c 5) (after0_5 m c) t d

theorem before0_2 (c : Dev nD) (t : Fin cfg0.N) (d) :
    (dats m 0 c).before 2 t d = (cfg0.win 2).fill (cfg0.grid.coords t) d (iblk m c 2 t) := by
  rw [(dats m 0 c).before_fetched 2 t (fetch0_2 t) d]; unfold Dat.fetched Dat.blockOf iblk; rw [A_eq]
theorem before0_3 (c : Dev nD) (t : Fin cfg0.N) (d) :
    (dats m 0 c).before 3 t d = (cfg0.win 3).fill (cfg0.grid.coords t) d (iblk m c 3 t) := by
  rw [(dats m 0 c).before_fetched 3 t (fetch0_3 t) d]; unfold Dat.fetched Dat.blockOf iblk; rw [A_eq]
theorem before0_4 (c : Dev nD) (t : Fin cfg0.N) (d) :
    (dats m 0 c).before 4 t d = (cfg0.win 4).fill (cfg0.grid.coords t) d (iblk m c 4 t) := by
  rw [(dats m 0 c).before_fetched 4 t (fetch0_4 t) d]; unfold Dat.fetched Dat.blockOf iblk; rw [A_eq]
theorem before0_6 (c : Dev nD) (t : Fin cfg0.N) (d) :
    (dats m 0 c).before 6 t d = (cfg0.win 6).fill (cfg0.grid.coords t) d (iblk m c 6 t) := by
  rw [(dats m 0 c).before_fetched 6 t (fetch0_6 t) d]; unfold Dat.fetched Dat.blockOf iblk; rw [A_eq]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ owns (c : Thread nD τ) (st0_5 t) fullShare ((dats m 0 c).after 5 t)
    ∗ (∃ d, owns (c : Thread nD τ) (st0_6 t) fullShare ((cfg0.win 6).fill (cfg0.grid.coords t) d ((cfg0.win 6).cut (cfg0.grid.coords t) ((dats m 0 c).after 6 t))))
    ∗ (∃ X, owns (c : Thread nD τ) (st0_7 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    cut_fblk, cut_fblk, cut_fblk, cut_fblk]
  simp only [before0_0, before0_1, before0_2, before0_3, before0_4, before0_5, before0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t)
    ((cfg0.win 2).fill (cfg0.grid.coords t) d2 (iblk m c 2 t)) ((cfg0.win 3).fill (cfg0.grid.coords t) d3 (iblk m c 3 t))
    ((cfg0.win 4).fill (cfg0.grid.coords t) d4 (iblk m c 4 t)) (iblk m c 5 t) ((cfg0.win 6).fill (cfg0.grid.coords t) d6 (iblk m c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  isplitl [H5]; · iexact H5
  isplitl [H6]; · iexists d6; iexact H6
  iexists _; iexact H7

/-- The library's body obligation, at every point, the result window forgotten. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

set_option backward.isDefEq.respectTransparency.types false in
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- The frame: the three argument arrays the pipeline stages are inputs, which no write-back touches; the other two
    no window stages and the region leaves as it found them; and no host operation before the region writes an
    argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
      (Pipeline.RDat.FramePost.arr_in h c 2 rfl).trans ((A_eq m c 2).trans (V_main_arg1 m c)),
      (Pipeline.RDat.FramePost.arr_in h c 3 rfl).trans ((A_eq m c 3).trans (V_main_arg2 m c)),
      (Pipeline.RDat.FramePost.arr_in h c 4 rfl).trans ((A_eq m c 4).trans (V_main_arg3 m c)),
      ((h c).2 main_arg4 (Pipeline.mem_restRefs_of main_arg4 (by decide) (by decide))).trans (V_main_arg4 m c)⟩)
    (run_main m ρ)

end Cert.Kernel.Run

end
-- ==== Proof.BodyIdeal.lean ====
/-
  One grid point of the kernel, as a fact about memory.

  The body reads its seven input blocks whole — the even and the odd columns of `x`, a block of 512 rows of the
  packed weight, of the scales and of the zero points, the per-group sums of `x`, a block of 512 bias entries —
  and overwrites the whole 32 × 512 result block with one value: the arithmetic of the seven blocks (`k0_pay1`).
  So whatever the result block held, it ends holding that value (`outBlk`), and the input blocks are left as
  they were. Nothing here depends on how floats are read.
-/
import proofs.«410288_j28690381537821_3_alg».proof.Proof.Gen.KernelIdeal.Frame
import proofs.«410288_j28690381537821_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each a whole block -/

abbrev rX : Rect S32x2048 := Rect.unit (s := S32x2048) ![0, 0] S32x2048.size inb_S32x2048_S32x2048_0_0
abbrev rW : Rect S512x2048 := Rect.unit (s := S512x2048) ![0, 0] S512x2048.size inb_S512x2048_S512x2048_0_0
abbrev rS : Rect S512x32 := Rect.unit (s := S512x32) ![0, 0] S512x32.size inb_S512x32_S512x32_0_0
abbrev rG : Rect S32x32 := Rect.unit (s := S32x32) ![0, 0] S32x32.size inb_S32x32_S32x32_0_0
abbrev rB : Rect S1x512 := Rect.unit (s := S1x512) ![0, 0] S1x512.size inb_S1x512_S1x512_0_0
abbrev rO : Rect S32x512 := Rect.unit (s := S32x512) ![0, 0] S32x512.size inb_S32x512_S32x512_0_0

/-- What the result block holds after the body, from what the seven input blocks hold: the one whole-block store
    of the body's arithmetic. -/
def outBlk (xe xo : Vec F S32x2048 .bf16) (wt : Vec F S512x2048 .i32) (sc zp : Vec F S512x32 .f32)
    (xg : Vec F S32x32 .f32) (bi : Vec F S1x512 .f32) : Vec F S32x512 .f32 :=
  View.canon [⟨rO, k0_pay1 (View.ld sc rS) (View.ld zp rS) (View.ld wt rW) (View.ld xe rX) (View.ld xo rX) (View.ld xg rG) (View.ld bi rB)⟩]

/-- The one store covers the result block. -/
theorem cover_out (p0 : Vec F S32x512 .f32) (y : S32x512.Idx) :
    ∃ pc ∈ ([⟨rO, p0⟩] : List (View.Piece (Elt F) S32x512 .f32)), y ∈ pc.1.set :=
  View.cover_of_tiled [⟨rO, p0⟩] S32x512.size (by rfl) y

set_option maxHeartbeats 1000000 in
/-- The body on whole memrefs: the seven inputs at contents `xe … bi`, the result block at anything; it ends with the
    inputs as they were and the result block at `outBlk` of them. -/
theorem sound_kernel (c : Dev nD) (E : Set ℕ) (i : grid0.Coords)
    (arg1 : Memref sig .tc .vmem S32x2048 .bf16) (harg1 : arg1.IsWhole) (arg2 : Memref sig .tc .vmem S32x2048 .bf16) (harg2 : arg2.IsWhole)
    (arg3 : Memref sig .tc .vmem S512x2048 .i32) (harg3 : arg3.IsWhole) (arg4 : Memref sig .tc .vmem S512x32 .f32) (harg4 : arg4.IsWhole)
    (arg5 : Memref sig .tc .vmem S512x32 .f32) (harg5 : arg5.IsWhole) (arg6 : Memref sig .tc .vmem S32x32 .f32) (harg6 : arg6.IsWhole)
    (arg7 : Memref sig .tc .vmem S1x512 .f32) (harg7 : arg7.IsWhole) (arg8 : Memref sig .tc .vmem S32x512 .f32) (harg8 : arg8.IsWhole)
    (xe xo : Vec F S32x2048 .bf16) (wt : Vec F S512x2048 .i32) (sc zp : Vec F S512x32 .f32) (xg : Vec F S32x32 .f32) (bi : Vec F S1x512 .f32)
    (K : PUnit → sProp 𝕄) :
    iprop(owns (c : Thread nD τ) arg1 fullShare xe ∗ owns (c : Thread nD τ) arg2 fullShare xo ∗ owns (c : Thread nD τ) arg3 fullShare wt
        ∗ owns (c : Thread nD τ) arg4 fullShare sc ∗ owns (c : Thread nD τ) arg5 fullShare zp ∗ owns (c : Thread nD τ) arg6 fullShare xg
        ∗ owns (c : Thread nD τ) arg7 fullShare bi ∗ (∃ d, owns (c : Thread nD τ) arg8 fullShare d)
        ∗ (iprop(owns (c : Thread nD τ) arg1 fullShare xe ∗ owns (c : Thread nD τ) arg2 fullShare xo ∗ owns (c : Thread nD τ) arg3 fullShare wt
            ∗ owns (c : Thread nD τ) arg4 fullShare sc ∗ owns (c : Thread nD τ) arg5 fullShare zp ∗ owns (c : Thread nD τ) arg6 fullShare xg
            ∗ owns (c : Thread nD τ) arg7 fullShare bi ∗ owns (c : Thread nD τ) arg8 fullShare (outBlk xe xo wt sc zp xg bi)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

end Cert.KernelIdeal.Body

end
-- ==== Proof.FrameIdeal.lean ====
/-
  The idealized kernel's run over its 22 grid points.

  The grid walks the 11008 output columns in blocks of 512; the last block holds only 256 columns of the arrays, and the
  transfers of the packed weight, the scales, the zero points, the bias and the result are cut there: a fetch fills the
  first 256 rows (or columns) of the staging buffer with the array's and leaves the rest at words nothing names; the
  write-back writes the first 256 columns of the result block and nothing past the array's end. So the proof data name
  each cut block only on the part inside the array (`fblk`: the block filled out with an arbitrary word), and what the
  body leaves in the result block is named on that part only. That is sound as soon as the part of the result block
  inside the array does not depend on what fills the input buffers past the arrays' end (`Local`): column `o` of the
  result block is computed from row `o` of the weight, scale and zero-point blocks and entry `o` of the bias block.
-/
import proofs.«410288_j28690381537821_3_alg».proof.Proof.BodyIdeal
import proofs.«410288_j28690381537821_3_alg».proof.Proof.Gen.KernelIdeal.Frame
import proofs.«410288_j28690381537821_3_alg».proof.Proof.Gen.KernelIdeal.Points
import proofs.«410288_j28690381537821_3_alg».proof.Proof.Gen.KernelIdeal.Launch
import Idealize.ShloMosaic.PureOps.Ideal
import Idealize.ShloMosaic.Lib.Pipeline.Frame
import Idealize.ShloMosaic.Lib.Pipeline.FrameBody
import Idealize.ShloMosaic.Lib.Tactic

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- Window `w`'s block at point `t` filled out to the staging buffer's full extent: the block on the part inside the
    array, a word nothing reads past it. -/
def fblk (c : Dev nD) (w : Fin cfg0.W) (t : Fin cfg0.N) : (cfg0.win w).block.Idx → Elt Ideal (cfg0.win w).elt :=
  (cfg0.win w).fill (cfg0.grid.coords t) (fun _ => Classical.arbitrary _) (iblk m c w t)

/-- Its part inside the array is the block. -/
theorem cut_fblk (c : Dev nD) (w : Fin cfg0.W) (t : Fin cfg0.N) :
    (cfg0.win w).cut (cfg0.grid.coords t) (fblk m c w t) = iblk m c w t :=
  (cfg0.win w).cut_fill _ _ _

/-- The result block after the body at point `t`, the cut input blocks filled out. -/
def outAt (c : Dev nD) (t : Fin cfg0.N) : Vec Ideal S32x512 .f32 :=
  outBlk (iblk m c 0 t) (iblk m c 1 t) (fblk m c 2 t) (fblk m c 3 t) (fblk m c 4 t) (iblk m c 5 t) (fblk m c 6 t)

/-- The part of the result block inside the array does not depend on what fills the cut input blocks past the
    arrays' end. -/
def Local (c : Dev nD) : Prop :=
  ∀ (t : Fin cfg0.N) (d2 : (cfg0.win 2).block.Idx → Elt Ideal (cfg0.win 2).elt) (d3 : (cfg0.win 3).block.Idx → Elt Ideal (cfg0.win 3).elt)
    (d4 : (cfg0.win 4).block.Idx → Elt Ideal (cfg0.win 4).elt) (d6 : (cfg0.win 6).block.Idx → Elt Ideal (cfg0.win 6).elt),
    (cfg0.win 7).cut (cfg0.grid.coords t)
        (outBlk (iblk m c 0 t) (iblk m c 1 t) ((cfg0.win 2).fill (cfg0.grid.coords t) d2 (iblk m c 2 t))
          ((cfg0.win 3).fill (cfg0.grid.coords t) d3 (iblk m c 3 t)) ((cfg0.win 4).fill (cfg0.grid.coords t) d4 (iblk m c 4 t))
          (iblk m c 5 t) ((cfg0.win 6).fill (cfg0.grid.coords t) d6 (iblk m c 6 t)))
      = (cfg0.win 7).cut (cfg0.grid.coords t) (outAt m c t)

/-- The proof data of the one pipeline on core `c`: the arrays as the region finds them; after the body each input's
    buffer at its block (a cut one filled out) and the result's at `outAt`; the class invariant; nothing owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fblk m c 2 t
    | ⟨3, _⟩ => fblk m c 3 t
    | ⟨4, _⟩ => fblk m c 4 t
    | ⟨5, _⟩ => iblk m c 5 t
    | ⟨6, _⟩ => fblk m c 6 t
    | ⟨7, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = fblk m c 2 t := by dsimp only [dats]
theorem after0_3 (c : Dev nD) (t : Fin cfg0.N) : (dats m 0 c).after 3 t = fblk m c 3 t := by dsimp only [dats]
theorem after0_4 (c : Dev nD) (t : Fin cfg0.N) : (dats m 0 c).after 4 t = fblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = fblk m c 6 t := by dsimp only [dats]
theorem after0_7 (c : Dev nD) (t : Fin cfg0.N) : (dats m 0 c).after 7 t = outAt m c t := by dsimp only [dats]

/-! ## What the body finds in each buffer -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_5 (c : Dev nD) (t : Fin cfg0.N) (d) : (dats m 0 c).before 5 t d = iblk m c 5 t :=
  before0_5_of m (dats m 0 c) (A_eq m c 5) (after0_5 m c) t d

/-- A cut input window is fetched at every point: its buffer holds the block on the part inside the array and what the
    overwrite before the fetch left (`d`, anything) elsewhere. -/
theorem before0_2 (c : Dev nD) (t : Fin cfg0.N) (d) :
    (dats m 0 c).before 2 t d = (cfg0.win 2).fill (cfg0.grid.coords t) d (iblk m c 2 t) := by
  rw [(dats m 0 c).before_fetched 2 t (fetch0_2 t) d]; unfold Dat.fetched Dat.blockOf iblk; rw [A_eq]
theorem before0_3 (c : Dev nD) (t : Fin cfg0.N) (d) :
    (dats m 0 c).before 3 t d = (cfg0.win 3).fill (cfg0.grid.coords t) d (iblk m c 3 t) := by
  rw [(dats m 0 c).before_fetched 3 t (fetch0_3 t) d]; unfold Dat.fetched Dat.blockOf iblk; rw [A_eq]
theorem before0_4 (c : Dev nD) (t : Fin cfg0.N) (d) :
    (dats m 0 c).before 4 t d = (cfg0.win 4).fill (cfg0.grid.coords t) d (iblk m c 4 t) := by
  rw [(dats m 0 c).before_fetched 4 t (fetch0_4 t) d]; unfold Dat.fetched Dat.blockOf iblk; rw [A_eq]
theorem before0_6 (c : Dev nD) (t : Fin cfg0.N) (d) :
    (dats m 0 c).before 6 t d = (cfg0.win 6).fill (cfg0.grid.coords t) d (iblk m c 6 t) := by
  rw [(dats m 0 c).before_fetched 6 t (fetch0_6 t) d]; unfold Dat.fetched Dat.blockOf iblk; rw [A_eq]

/-- The result window is written back at every point: its buffer is fresh at each. -/
theorem before0_7 (c : Dev nD) (t : Fin cfg0.N) (d) : (dats m 0 c).before 7 t d = d :=
  (dats m 0 c).before_out_reset 7 rfl t
    (by by_cases h : t.val = 0
        · exact .inl h
        · exact .inr ⟨h, flush0_7 _⟩) d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t))))
    ∗ owns (c : Thread nD τ) (st0_5 t) fullShare ((dats m 0 c).after 5 t)
    ∗ (∃ d, owns (c : Thread nD τ) (st0_6 t) fullShare ((cfg0.win 6).fill (cfg0.grid.coords t) d ((cfg0.win 6).cut (cfg0.grid.coords t) ((dats m 0 c).after 6 t))))
    ∗ (∃ d, owns (c : Thread nD τ) (st0_7 t) fullShare ((cfg0.win 7).fill (cfg0.grid.coords t) d ((cfg0.win 7).cut (cfg0.grid.coords t) ((dats m 0 c).after 7 t)))))

theorem sound_body (c : Dev nD) (hloc : Local m c) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7,
    cut_fblk, cut_fblk, cut_fblk, cut_fblk]
  simp only [before0_0, before0_1, before0_2, before0_3, before0_4, before0_5, before0_6, before0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t)
    ((cfg0.win 2).fill (cfg0.grid.coords t) d2 (iblk m c 2 t)) ((cfg0.win 3).fill (cfg0.grid.coords t) d3 (iblk m c 3 t))
    ((cfg0.win 4).fill (cfg0.grid.coords t) d4 (iblk m c 4 t)) (iblk m c 5 t) ((cfg0.win 6).fill (cfg0.grid.coords t) d6 (iblk m c 6 t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  isplitl [H5]; · iexact H5
  isplitl [H6]; · iexists d6; iexact H6
  iexists (outBlk (iblk m c 0 t) (iblk m c 1 t) ((cfg0.win 2).fill (cfg0.grid.coords t) d2 (iblk m c 2 t))
    ((cfg0.win 3).fill (cfg0.grid.coords t) d3 (iblk m c 3 t)) ((cfg0.win 4).fill (cfg0.grid.coords t) d4 (iblk m c 4 t))
    (iblk m c 5 t) ((cfg0.win 6).fill (cfg0.grid.coords t) d6 (iblk m c 6 t)))
  rw [← hloc t d2 d3 d4 d6, Window.fill_cut]
  iexact H7

/-- The library's body obligation, at every point. -/
theorem body_obligation (c : Dev nD) (hloc : Local m c) :
    BodyObligationLoose (dats m 0 c) (defs₀ (F := Ideal)) Variants.none () Set.univ := fun t => by
  rw [bigSep_W0, bigSep_W0]
  exact sound_body m c hloc t

/-! ## The run and the frame -/

set_option backward.isDefEq.respectTransparency.types false in
/-- Every weakly fair execution of @main terminates, and every final state has each array of the pipeline at what the
    write-backs leave and every other unscoped buffer as the region found it. -/
theorem run_main (hloc : ∀ c, Local m c) :
    θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c (hloc c)) (hshare := fun c => (dats m 0 c).share_full fun _ => rfl)
    (howed := fun _ _ => rfl) (V := V m) (hmain := hmain m Variants.none) (hA := A_eq m) (hΦ := fun _ _ => rfl)

end Cert.KernelIdeal.Run

end
-- ==== Proof.Spec.lean ====
/-
  The mathematics both programs compute, entry by entry, on the extended reals.

  A row `o` of the packed weight holds 2048 words; word `p` carries two four-bit values: the arithmetic shift
  of the word by four (input position `2p`) and the word's low four bits (input position `2p + 1`). The 4096
  input positions fall into 32 groups of 128; group `g` of row `o` has a scale `sc (o, g)` and a zero point
  `zp (o, g)`. The dequantized weight at `(o, k)` is `(nibble (o, k) - zp (o, k / 128)) * sc (o, k / 128)`, and the
  result at `(b, o)` is the dot product of row `b` of `x` with row `o` of that weight, plus `bias o`
  (`refEntry`). The other arrangement (`kerEntry`) splits the dot product into the even and the odd input
  positions with the scale folded into the nibble, and takes the zero points out as one correction term per
  group: the group's sum of `x` times `sc * zp`.
-/
import Idealize.ShloMosaic.PureOps.Ideal.Laws
import Idealize.ShloMosaic.Lib.ValueIdx

noncomputable section

open scoped BigOperators

namespace Cert.Int4Linear

open Idealize.ShloMosaic Idealize.ShloMosaic.ValueIdx

/-- The arrays' index types, over literal extents. -/
abbrev XIdx : Type := (⟨2, ![32, 4096]⟩ : Shape).Idx
abbrev WIdx : Type := (⟨2, ![11008, 2048]⟩ : Shape).Idx
abbrev GIdx : Type := (⟨2, ![11008, 32]⟩ : Shape).Idx
abbrev BIdx : Type := (⟨1, ![11008]⟩ : Shape).Idx
abbrev OIdx : Type := (⟨2, ![32, 11008]⟩ : Shape).Idx

/-- The high four-bit value of a packed word: the word shifted right (arithmetically) by four, as a real. -/
def hi (w : BitVec 32) : EReal := (((IntOp.shrsi .vector w 4#32).toInt : ℝ) : EReal)

/-- The low four-bit value of a packed word: the word's low four bits, as a real. -/
def lo (w : BitVec 32) : EReal := (((IntOp.andi w 15#32).toInt : ℝ) : EReal)

/-- Input position `2p`, `2p + 1`: where the two values of packed word `p` go. -/
def evn (p : Fin 2048) : Fin 4096 := ⟨2 * p.val, by omega⟩
def odd (p : Fin 2048) : Fin 4096 := ⟨2 * p.val + 1, by omega⟩
/-- The packed word an input position comes from. -/
def half (k : Fin 4096) : Fin 2048 := ⟨k.val / 2, by omega⟩
/-- The group of a packed word (64 words to a group) and of an input position (128 to a group). -/
def grpP (p : Fin 2048) : Fin 32 := ⟨p.val / 64, by omega⟩
def grpK (k : Fin 4096) : Fin 32 := ⟨k.val / 128, by omega⟩
/-- Input position `j` of group `g`. -/
def inGrp (g : Fin 32) (j : Fin 128) : Fin 4096 := ⟨128 * g.val + j.val, by omega⟩

/-- The unpacked four-bit value at input position `k` of row `o`. -/
def nib (wp : WIdx → BitVec 32) (o : Fin 11008) (k : Fin 4096) : EReal :=
  if k.val % 2 = 0 then hi (wp (ix2 o (half k))) else lo (wp (ix2 o (half k)))

/-- The dequantize-then-multiply arrangement at entry `(b, o)`. -/
def refEntry (x : XIdx → EReal) (wp : WIdx → BitVec 32) (sc zp : GIdx → EReal) (bias : BIdx → EReal)
    (b : Fin 32) (o : Fin 11008) : EReal :=
  (∑ k : Fin 4096, x (ix2 b k) * ((nib wp o k - zp (ix2 o (grpK k))) * sc (ix2 o (grpK k)))) + bias (ix1 o)

/-- The split arrangement at entry `(b, o)`: even positions, odd positions, less the zero-point correction. -/
def kerEntry (x : XIdx → EReal) (wp : WIdx → BitVec 32) (sc zp : GIdx → EReal) (bias : BIdx → EReal)
    (b : Fin 32) (o : Fin 11008) : EReal :=
  ((∑ p : Fin 2048, x (ix2 b (evn p)) * (hi (wp (ix2 o p)) * sc (ix2 o (grpP p)))
      + ∑ p : Fin 2048, x (ix2 b (odd p)) * (lo (wp (ix2 o p)) * sc (ix2 o (grpP p))))
    - ∑ g : Fin 32, (0 + ∑ j : Fin 128, x (ix2 b (inGrp g j))) * (sc (ix2 o g) * zp (ix2 o g)))
  + bias (ix1 o)

/-- The whole result array in the first arrangement. -/
def G (x : XIdx → EReal) (wp : WIdx → BitVec 32) (sc zp : GIdx → EReal) (bias : BIdx → EReal) : OIdx → EReal :=
  fun i => refEntry x wp sc zp bias ⟨(i 0).val, idx2_lt0 i⟩ ⟨(i 1).val, idx2_lt1 i⟩

/-- The whole result array in the second arrangement. -/
def K (x : XIdx → EReal) (wp : WIdx → BitVec 32) (sc zp : GIdx → EReal) (bias : BIdx → EReal) : OIdx → EReal :=
  fun i => kerEntry x wp sc zp bias ⟨(i 0).val, idx2_lt0 i⟩ ⟨(i 1).val, idx2_lt1 i⟩

end Cert.Int4Linear

end
-- ==== Proof.LibRowsDot.lean ====
/-
  A matrix product against a transposed right operand, read at an entry, at the ideal values.

  For the dimension numbers of an M×K by N×K product (each operand contracted on its second axis, no batch
  axes), a `tpu.matmul` into the zero accumulator and the host's `dot_general` are, at the entry (r, c), the sum
  over k of left (r, k) times right (c, k) on the extended reals: the row r of the left operand against the row c
  of the right one.
-/
import Idealize.ShloMosaic.PureOps.Ideal.Laws
import Idealize.ShloMosaic.Lib.ValueIdx

noncomputable section

open scoped BigOperators

namespace Idealize.ShloMosaic.RowsDot

open Idealize.ShloMosaic Idealize.ShloMosaic.ValueIdx

variable (M K N : Nat)

/-- The left operand's index at output entry `j` and contraction index `k`: row of `j`, column `k`. -/
theorem lhsIdx_eq (j : (⟨2, ![M, N]⟩ : Shape).Idx) (k : Fin K) :
    (DotDims.transposedRhs M K N).lhsIdx j ((contrEquiv1 (DotDims.transposedRhs M K N) K rfl rfl).symm k)
      = ix2 ⟨(j 0).val, idx2_lt0 j⟩ k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl j _).trans hk

/-- The right operand's index there: the row picked by the column of `j`, column `k`. -/
theorem rhsIdx_eq (j : (⟨2, ![M, N]⟩ : Shape).Idx) (k : Fin K) :
    (DotDims.transposedRhs M K N).rhsIdx j ((contrEquiv1 (DotDims.transposedRhs M K N) K rfl rfl).symm k)
      = ix2 ⟨(j 1).val, idx2_lt1 j⟩ k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl j _).trans hk

/-- A `tpu.matmul` of these dimension numbers into the zero splat, at entry (r, c): `∑ k, lhs (r, k) * rhs (c, k)`. -/
theorem matmul_zero_apply {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

/-- The host's `dot_general` of these dimension numbers at entry (r, c): the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, lhs (ix2 r k) * rhs (ix2 c k) := by
  rw [Ideal.dotGeneral_apply, ← Equiv.sum_comp (contrEquiv1 (DotDims.transposedRhs M K N) K rfl rfl).symm]
  refine Finset.sum_congr rfl fun k _ => ?_
  rw [lhsIdx_eq, rhsIdx_eq]
  rfl

end Idealize.ShloMosaic.RowsDot

end
-- ==== Proof.PayEntry.lean ====
/-
  The kernel body's arithmetic, read at one entry of its [32, 512] result, on the extended reals.

  The body spreads the scale block [512, 32] along each row so that word `p` of row `o` meets the scale of its
  group `p / 64` (row-major: `p = 64 g + l`), multiplies it into the high and the low four-bit value of every
  packed word, and takes three products that contract both operands' second axis: the even columns of `x`
  against the scaled high values, the odd columns against the scaled low values, and the per-group sums of `x`
  against scale times zero point. The entry `(b, o)` of the result is the first two sums added, less the third,
  plus the bias at `o`.
-/
import proofs.«410288_j28690381537821_3_alg».proof.Proof.Gen.KernelIdeal.Skeleton
import proofs.«410288_j28690381537821_3_alg».proof.Proof.Spec
import proofs.«410288_j28690381537821_3_alg».proof.Proof.LibRowsDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Cert.Int4Linear Idealize.ShloMosaic Idealize.ShloMosaic.ValueIdx

/-! ## The two contractions are products against a transposed right operand -/

/-- The [32, 2048] by [512, 2048] contraction is the product with the right operand's rows. -/
theorem dotBig_eq [Cert.KernelIdeal.Facts] :
    dot_S32x2048_S512x2048_S32x512_1_1_0_0_n_n = DotDims.transposedRhs 32 2048 512 := rfl

/-- The [32, 32] by [512, 32] contraction is the product with the right operand's rows. -/
theorem dotSmall_eq [Cert.KernelIdeal.Facts] :
    dot_S32x32_S512x32_S32x512_1_1_0_0_n_n = DotDims.transposedRhs 32 32 512 := rfl

/-! ## Layout operations at an index -/

/-- A [a, b] array cast to [a, b, 1] reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A [a, b, 1] array broadcast to [a, b, c] reads, at (i, j, l), the operand at (i, j, 0). -/
theorem broadcastTo_ab1_abc_apply {α : Type} {a b c : ℕ} (x : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ x h (ix3 i j l) = x (ix3 i j (0 : Fin 1)) := by
  refine broadcastTo_apply x h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A [a, b, c] array cast to [a, b * c] reads, at (i, p), the operand at (i, p / c, p % c). -/
theorem shapeCast_abc_aBC_apply {α : Type} {a b c n : ℕ} (x : (⟨3, ![a, b, c]⟩ : Shape).Idx → α)
    (h : (⟨3, ![a, b, c]⟩ : Shape).ShapeCasts ⟨2, ![a, n]⟩) (i : Fin a) (p : Fin n) (g : Fin b) (l : Fin c)
    (hp : p.val = g.val * c + l.val) (hn : n = b * c) :
    shapeCast ⟨2, ![a, n]⟩ x h (ix2 i p) = x (ix3 i g l) :=
  shapeCast_apply x h _ _ (by
    rw [Shape.rowMajor_val_three, Shape.rowMajor_val_two]
    show (i.val * b + g.val) * c + l.val = i.val * n + p.val
    rw [hp, hn, Nat.add_mul, Nat.mul_assoc, Nat.add_assoc])

/-- The scale spread along a row: word `p` of row `o` reads the scale of group `p / 64`. -/
theorem scFull_entry [Cert.KernelIdeal.Facts] (v0 : Vec Ideal S512x32 .f32) (o : Fin 512) (p : Fin 2048) :
    shapeCast S512x2048
        (broadcastTo S512x32x64
          (shapeCast S512x32x1 (shapeCast S512x32x1 v0 Facts₀.shapeCasts_S512x32_S512x32x1) Facts₀.shapeCasts_S512x32x1_S512x32x1)
          Facts₀.broadcasts_S512x32x1_S512x32x64)
        Facts₀.shapeCasts_S512x32x64_S512x2048 (ix2 o p)
      = v0 (ix2 o (grpP p)) := by
  refine (shapeCast_abc_aBC_apply _ _ o p (grpP p) (⟨p.val % 64, by omega⟩ : Fin 64) ?_ rfl).trans ?_
  · show p.val = p.val / 64 * 64 + p.val % 64
    omega
  refine (broadcastTo_ab1_abc_apply _ _ o (grpP p) _).trans ?_
  rw [shapeCast_self]
  exact shapeCast_ab_ab1_apply v0 _ o (grpP p) 0

/-! ## The pieces of the body at an entry -/

/-- The shifted words times the scale, at an entry: the high four-bit value times its group's scale. -/
theorem wHigh_entry [Cert.KernelIdeal.Facts] (v7 : Vec Ideal S512x2048 .i32) (sc : FVec Ideal S512x2048 .f32)
    (o : Fin 512) (p : Fin 2048) :
    mulf (sitofp (F := Ideal) .bf16 (shrsi v7 (broadcast S512x2048 4#32))) (truncf .bf16 sc Facts₀.bitsLt_bf16_f32) (ix2 o p)
      = hi (v7 (ix2 o p)) * sc (ix2 o p) := rfl

/-- The masked words times the scale, at an entry: the low four-bit value times its group's scale. -/
theorem wLow_entry [Cert.KernelIdeal.Facts] (v7 : Vec Ideal S512x2048 .i32) (sc : FVec Ideal S512x2048 .f32)
    (o : Fin 512) (p : Fin 2048) :
    mulf (sitofp (F := Ideal) .bf16 (andi v7 (broadcast S512x2048 15#32))) (truncf .bf16 sc Facts₀.bitsLt_bf16_f32) (ix2 o p)
      = lo (v7 (ix2 o p)) * sc (ix2 o p) := rfl

/-- The product of a [32, 2048] array with a [512, 2048] array over their second axes, at an entry. -/
theorem matBig_entry [Cert.KernelIdeal.Facts] (x : FVec Ideal S32x2048 .bf16) (w : FVec Ideal S512x2048 .bf16)
    (b : Fin 32) (o : Fin 512) :
    matmul dot_S32x2048_S512x2048_S32x512_1_1_0_0_n_n none (shapeCast S32x2048 x Facts₀.shapeCasts_S32x2048_S32x2048) w
        (constant (F := Ideal) S32x512 .f32 0x00000000#32) (ix2 b o)
      = ∑ p : Fin 2048, x (ix2 b p) * w (ix2 o p) := by
  rw [shapeCast_self, dotBig_eq]
  exact RowsDot.matmul_zero_apply 32 2048 512 none x w b o

/-- The product of a [32, 32] array with a [512, 32] array over their second axes, at an entry. -/
theorem matSmall_entry [Cert.KernelIdeal.Facts] (x : FVec Ideal S32x32 .f32) (w : FVec Ideal S512x32 .f32)
    (b : Fin 32) (o : Fin 512) :
    matmul dot_S32x32_S512x32_S32x512_1_1_0_0_n_n none (shapeCast S32x32 x Facts₀.shapeCasts_S32x32_S32x32) w
        (constant (F := Ideal) S32x512 .f32 0x00000000#32) (ix2 b o)
      = ∑ g : Fin 32, x (ix2 b g) * w (ix2 o g) := by
  rw [shapeCast_self, dotSmall_eq]
  exact RowsDot.matmul_zero_apply 32 32 512 none x w b o

/-- The bias row spread over the 32 rows, at an entry. -/
theorem bias_entry [Cert.KernelIdeal.Facts] (v28 : Vec Ideal S1x512 .f32) (b : Fin 32) (o : Fin 512) :
    broadcastTo S32x512 (shapeCast S1x512 v28 Facts₀.shapeCasts_S1x512_S1x512) Facts₀.broadcasts_S1x512_S32x512 (ix2 b o)
      = v28 (ix2 (0 : Fin 1) o) := by
  rw [shapeCast_self]
  exact broadcastTo_1b_ab_apply v28 _ b o

/-! ## The whole body at an entry -/

/-- The kernel body's arithmetic at an entry: the even-position and the odd-position dot products with the scale
    folded into the four-bit values, less the zero-point correction (one term per group), plus the bias. -/
theorem pay_entry [Cert.KernelIdeal.Facts] (v0 v1 : Vec Ideal S512x32 .f32) (v7 : Vec Ideal S512x2048 .i32)
    (v16 v19 : Vec Ideal S32x2048 .bf16) (v24 : Vec Ideal S32x32 .f32) (v28 : Vec Ideal S1x512 .f32)
    (b : Fin 32) (o : Fin 512) :
    k0_pay1 (F := Ideal) v0 v1 v7 v16 v19 v24 v28 (ix2 b o)
      = ((∑ p : Fin 2048, v16 (ix2 b p) * (hi (v7 (ix2 o p)) * v0 (ix2 o (grpP p)))
          + ∑ p : Fin 2048, v19 (ix2 b p) * (lo (v7 (ix2 o p)) * v0 (ix2 o (grpP p))))
         - ∑ g : Fin 32, v24 (ix2 b g) * (v0 (ix2 o g) * v1 (ix2 o g)))
        + v28 (ix2 (0 : Fin 1) o) := by
  unfold k0_pay1
  refine (addf_apply _ _ _).trans ?_
  refine congrArg₂ HAdd.hAdd ?_ (bias_entry v28 b o)
  refine (subf_apply _ _ _).trans ?_
  refine congrArg₂ HSub.hSub ?_ ?_
  · refine (addf_apply _ _ _).trans ?_
    refine congrArg₂ HAdd.hAdd ?_ ?_
    · refine (matBig_entry v16 _ b o).trans ?_
      refine Finset.sum_congr rfl fun p _ => ?_
      refine congrArg (v16 (ix2 b p) * ·) ?_
      refine (wHigh_entry v7 _ o p).trans ?_
      exact congrArg (hi (v7 (ix2 o p)) * ·) (scFull_entry v0 o p)
    · refine (matBig_entry v19 _ b o).trans ?_
      refine Finset.sum_congr rfl fun p _ => ?_
      refine congrArg (v19 (ix2 b p) * ·) ?_
      refine (wLow_entry v7 _ o p).trans ?_
      exact congrArg (lo (v7 (ix2 o p)) * ·) (scFull_entry v0 o p)
  · refine (matSmall_entry v24 _ b o).trans ?_
    rfl

end Cert.KernelIdeal.PayValue

end
-- ==== Proof.HostPrefix.lean ====
/-
  What the host computes before the one pipelined region, entry by entry, at the extended reals.

  The input `x` is a [32, 4096] array. Viewed as [32, 2048, 2] (row-major), its last axis separates the even input
  positions from the odd ones: entry `(b, p, 0)` is `x (b, 2p)` and entry `(b, p, 1)` is `x (b, 2p + 1)`. Cutting the
  last axis at 0 or at 1, dropping the unit axis and narrowing the format (the identity on extended reals) gives the
  two [32, 2048] arrays of even and odd positions. Viewed as [32, 32, 128], entry `(b, g, j)` is `x (b, 128 g + j)`;
  summing the last axis from the constant 0 gives each group's sum of `x`. The bias is the same vector with a unit
  axis in front.
-/
import proofs.«410288_j28690381537821_3_alg».proof.Proof.Gen.KernelIdeal.Frame
import proofs.«410288_j28690381537821_3_alg».proof.Proof.Spec
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.HostPrefix

open Cert.KernelIdeal Cert.KernelIdeal.Gen Cert.Int4Linear Idealize.ShloMosaic Idealize.ShloMosaic.TcCoe
  Idealize.ShloMosaic.ValueIdx Idealize.SL.Sem

variable (m : (ℓ : Loc nD τ sig) → Buf (Elt Ideal) ℓ)

/-! ## The four arrays as terms of the launched arguments -/

/-- The even positions' array: `x` viewed as [32, 2048, 2], cut at 0 on the last axis, the unit axis dropped. -/
theorem V_xe_arr (c : Dev nD) :
    (V (F := Ideal) m c main_v3 : S32x2048.Idx → EReal)
      = (truncf .bf16 (shapeCast S32x2048 (extractStridedSlice S32x2048x1 ![0, 0, 0]
          (shapeCast S32x2048x2 (m ((c : Thread nD τ).loc main_arg0) : S32x4096.Idx → EReal) Facts₀.shapeCasts_S32x4096_S32x2048x2)
          Facts₀.slices_S32x2048x2_S32x2048x1_0_0_0) Facts₀.shapeCasts_S32x2048x1_S32x2048) Facts₀.bitsLt_bf16_f32 : FVec Ideal S32x2048 .bf16) := by
  dsimp only [Gen.V, Gen.hostOps0]
  after_results
  rfl

/-- The odd positions' array: the same, cut at 1. -/
theorem V_xo_arr (c : Dev nD) :
    (V (F := Ideal) m c main_v6 : S32x2048.Idx → EReal)
      = (truncf .bf16 (shapeCast S32x2048 (extractStridedSlice S32x2048x1 ![0, 0, 1]
          (shapeCast S32x2048x2 (m ((c : Thread nD τ).loc main_arg0) : S32x4096.Idx → EReal) Facts₀.shapeCasts_S32x4096_S32x2048x2)
          Facts₀.slices_S32x2048x2_S32x2048x1_0_0_1) Facts₀.shapeCasts_S32x2048x1_S32x2048) Facts₀.bitsLt_bf16_f32 : FVec Ideal S32x2048 .bf16) := by
  dsimp only [Gen.V, Gen.hostOps0]
  after_results
  rfl

/-- The group sums' array: `x` viewed as [32, 32, 128], its last axis summed from the constant 0. -/
theorem V_xg_arr (c : Dev nD) :
    (V (F := Ideal) m c main_v8 : S32x32.Idx → EReal)
      = Host.reduceAdd (F := Ideal)
          (shapeCast S32x32x128 (m ((c : Thread nD τ).loc main_arg0) : S32x4096.Idx → EReal) Facts₀.shapeCasts_S32x4096_S32x32x128)
          (constant (F := Ideal) S_ .f32 0x00000000#32) Facts₀.reducesTo_S32x32x128_S32x32_d2 Facts₀.h_S_ := by
  dsimp only [Gen.V, Gen.hostOps0]
  after_results
  rfl

/-- The bias with a unit axis in front. -/
theorem V_bias_arr (c : Dev nD) :
    (V (F := Ideal) m c main_v9 : S1x11008.Idx → EReal)
      = shapeCast S1x11008 (m ((c : Thread nD τ).loc main_arg4) : S11008.Idx → EReal) Facts₀.shapeCasts_S11008_S1x11008 := by
  dsimp only [Gen.V, Gen.hostOps0]
  after_results
  rfl

/-! ## Read at an entry -/

/-- Entry `(b, p)` of the even positions' array is `x (b, 2p)`. -/
theorem V_xe (c : Dev nD) (b : Fin 32) (p : Fin 2048) :
    (V (F := Ideal) m c main_v3 : S32x2048.Idx → EReal) (ix2 b p)
      = (m ((c : Thread nD τ).loc main_arg0) : S32x4096.Idx → EReal) (ix2 b (evn p)) := by
  refine (congrFun (V_xe_arr m c) (ix2 b p)).trans ?_
  rw [truncf_apply]
  refine (shapeCast_apply _ _ (ix2 b p) (ix3 b p (0 : Fin 1)) ?_).trans ?_
  · rw [Shape.rowMajor_val_three, Shape.rowMajor_val_two]
    show (b.val * 2048 + p.val) * 1 + 0 = b.val * 2048 + p.val
    omega
  refine (extractStridedSlice_apply _ _ _ (ix3 b p (0 : Fin 1)) (ix3 b p (0 : Fin 2)) ?_).trans ?_
  · intro a
    match a with
    | ⟨0, _⟩ => show b.val = 0 + b.val; omega
    | ⟨1, _⟩ => show p.val = 0 + p.val; omega
    | ⟨2, _⟩ => show 0 = 0 + 0; omega
  refine shapeCast_apply _ _ (ix3 b p (0 : Fin 2)) (ix2 b (evn p)) ?_
  rw [Shape.rowMajor_val_three, Shape.rowMajor_val_two]
  show b.val * 4096 + 2 * p.val = (b.val * 2048 + p.val) * 2 + 0
  omega

/-- Entry `(b, p)` of the odd positions' array is `x (b, 2p + 1)`. -/
theorem V_xo (c : Dev nD) (b : Fin 32) (p : Fin 2048) :
    (V (F := Ideal) m c main_v6 : S32x2048.Idx → EReal) (ix2 b p)
      = (m ((c : Thread nD τ).loc main_arg0) : S32x4096.Idx → EReal) (ix2 b (odd p)) := by
  refine (congrFun (V_xo_arr m c) (ix2 b p)).trans ?_
  rw [truncf_apply]
  refine (shapeCast_apply _ _ (ix2 b p) (ix3 b p (0 : Fin 1)) ?_).trans ?_
  · rw [Shape.rowMajor_val_three, Shape.rowMajor_val_two]
    show (b.val * 2048 + p.val) * 1 + 0 = b.val * 2048 + p.val
    omega
  refine (extractStridedSlice_apply _ _ _ (ix3 b p (0 : Fin 1)) (ix3 b p (1 : Fin 2)) ?_).trans ?_
  · intro a
    match a with
    | ⟨0, _⟩ => show b.val = 0 + b.val; omega
    | ⟨1, _⟩ => show p.val = 0 + p.val; omega
    | ⟨2, _⟩ => show 1 = 1 + 0; omega
  refine shapeCast_apply _ _ (ix3 b p (1 : Fin 2)) (ix2 b (odd p)) ?_
  rw [Shape.rowMajor_val_three, Shape.rowMajor_val_two]
  show b.val * 4096 + (2 * p.val + 1) = (b.val * 2048 + p.val) * 2 + 1
  omega

/-- Entry `(b, g)` of the group sums' array is `0 + ∑ j, x (b, 128 g + j)`. -/
theorem V_xg (c : Dev nD) (b : Fin 32) (g : Fin 32) :
    (V (F := Ideal) m c main_v8 : S32x32.Idx → EReal) (ix2 b g)
      = 0 + (∑ j : Fin 128, (m ((c : Thread nD τ).loc main_arg0) : S32x4096.Idx → EReal) (ix2 b (inGrp g j)) : EReal) := by
  refine (congrFun (V_xg_arr m c) (ix2 b g)).trans ?_
  rw [hostReduceAdd_apply, Ideal.hostReduceAdd_single _ (by decide : S32x32x128.Reduces [2] S32x32), constant_apply,
    Ideal.ofBits_zero_f32]
  congr 1
  refine Finset.sum_congr rfl fun j _ => ?_
  refine shapeCast_apply _ _ _ (ix2 b (inGrp g j)) ?_
  rw [Shape.rowMajor_val_three, Shape.rowMajor_val_two]
  show b.val * 4096 + (128 * g.val + j.val) = (b.val * 32 + g.val) * 128 + j.val
  omega

/-- Entry `(0, o)` of the bias array is `bias o`. -/
theorem V_bias (c : Dev nD) (o : Fin 11008) :
    (V (F := Ideal) m c main_v9 : S1x11008.Idx → EReal) (ix2 (0 : Fin 1) o)
      = (m ((c : Thread nD τ).loc main_arg4) : S11008.Idx → EReal) (ix1 o) := by
  refine (congrFun (V_bias_arr m c) (ix2 (0 : Fin 1) o)).trans ?_
  refine shapeCast_apply _ _ (ix2 (0 : Fin 1) o) (ix1 o) ?_
  rw [Shape.rowMajor_val_one, Shape.rowMajor_val_two]
  show o.val = 0 * 11008 + o.val
  omega

end Cert.KernelIdeal.HostPrefix

end
-- ==== Proof.KernelValue.lean ====
/-
  What the idealized kernel leaves in its result array, entry by entry.

  At grid point `t` the result block's column `o` (for `o` inside the array: all 512 columns, at the last point the first
  256) is computed from row `o` of the weight, scale and zero-point blocks, which are rows `512 t + o` of the arrays, from
  bias entry `512 t + o`, and from the even columns, the odd columns and the per-group sums of `x`, which the host
  operations before the region computed. Read back through those host operations, entry `(b, 512 t + o)` of what point
  `t` writes is the split arrangement `kerEntry` of the argument arrays; in particular it does not depend on the words
  past the arrays' end, which is the locality the run needs. The 22 blocks cover the 11008 columns, so the result array
  ends holding `K` of the arguments.
-/
import proofs.«410288_j28690381537821_3_alg».proof.Proof.FrameIdeal
import proofs.«410288_j28690381537821_3_alg».proof.Proof.PayEntry
import proofs.«410288_j28690381537821_3_alg».proof.Proof.HostPrefix
import proofs.«410288_j28690381537821_3_alg».proof.Proof.Spec
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.Body Cert.KernelIdeal.Run Cert.Int4Linear
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The result block at an entry -/

theorem hz : (![0, 0] : Fin 2 → Nat) = fun _ => 0 := funext fun a => by fin_cases a <;> rfl

/-- The result block is the body's arithmetic of the seven blocks: one whole-block store, whole-block loads. -/
theorem outBlk_eq (xe xo : Vec Ideal S32x2048 .bf16) (wt : Vec Ideal S512x2048 .i32) (sc zp : Vec Ideal S512x32 .f32)
    (xg : Vec Ideal S32x32 .f32) (bi : Vec Ideal S1x512 .f32) :
    outBlk xe xo wt sc zp xg bi = k0_pay1 (F := Ideal) sc zp wt xe xo xg bi := by
  unfold outBlk
  rw [View.canon_unit_zero hz]
  simp only [View.ld_unit_zero (S := S32x2048) hz, View.ld_unit_zero (S := S512x2048) hz, View.ld_unit_zero (S := S512x32) hz,
    View.ld_unit_zero (S := S32x32) hz, View.ld_unit_zero (S := S1x512) hz]

/-- Entry `(b, o)` of the result block, from the seven blocks: row `b` of the `x` blocks against row `o` of the others. -/
def blkEntry (xe xo : Vec Ideal S32x2048 .bf16) (wt : Vec Ideal S512x2048 .i32) (sc zp : Vec Ideal S512x32 .f32)
    (xg : Vec Ideal S32x32 .f32) (bi : Vec Ideal S1x512 .f32) (b : Fin 32) (o : Fin 512) : EReal :=
  ((∑ p : Fin 2048, xe (ix2 b p) * (hi (wt (ix2 o p)) * sc (ix2 o (grpP p)))
      + ∑ p : Fin 2048, xo (ix2 b p) * (lo (wt (ix2 o p)) * sc (ix2 o (grpP p))))
    - ∑ g : Fin 32, xg (ix2 b g) * (sc (ix2 o g) * zp (ix2 o g)))
  + bi (ix2 (0 : Fin 1) o)

theorem outBlk_entry (xe xo : Vec Ideal S32x2048 .bf16) (wt : Vec Ideal S512x2048 .i32) (sc zp : Vec Ideal S512x32 .f32)
    (xg : Vec Ideal S32x32 .f32) (bi : Vec Ideal S1x512 .f32) (b : Fin 32) (o : Fin 512) :
    outBlk xe xo wt sc zp xg bi (ix2 b o) = blkEntry xe xo wt sc zp xg bi b o := by
  rw [outBlk_eq]
  exact Cert.KernelIdeal.PayValue.pay_entry sc zp wt xe xo xg bi b o

/-! ## The windows over the grid, decided once -/

theorem grid_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-- How much of each cut block is inside its array: the same count of rows (weight, scale, zero point) or columns (bias,
    result) at every point, 512 of them but for the last point's 256. -/
theorem cut_facts : ∀ t : Fin cfg0.N,
    win0_2.xsize (grid0.coords t) (0 : Fin 2) = win0_7.xsize (grid0.coords t) (1 : Fin 2) ∧ win0_2.xsize (grid0.coords t) (1 : Fin 2) = 2048
    ∧ win0_3.xsize (grid0.coords t) (0 : Fin 2) = win0_7.xsize (grid0.coords t) (1 : Fin 2) ∧ win0_3.xsize (grid0.coords t) (1 : Fin 2) = 32
    ∧ win0_4.xsize (grid0.coords t) (0 : Fin 2) = win0_7.xsize (grid0.coords t) (1 : Fin 2) ∧ win0_4.xsize (grid0.coords t) (1 : Fin 2) = 32
    ∧ win0_6.xsize (grid0.coords t) (0 : Fin 2) = 1 ∧ win0_6.xsize (grid0.coords t) (1 : Fin 2) = win0_7.xsize (grid0.coords t) (1 : Fin 2)
    ∧ win0_7.xsize (grid0.coords t) (0 : Fin 2) = 32
    ∧ t.val * 512 + win0_7.xsize (grid0.coords t) (1 : Fin 2) ≤ 11008
    ∧ win0_7.xsize (grid0.coords t) (1 : Fin 2) ≤ 512
    ∧ (t.val < 21 → win0_7.xsize (grid0.coords t) (1 : Fin 2) = 512)
    ∧ (t.val = 21 → win0_7.xsize (grid0.coords t) (1 : Fin 2) = 256) :=
  (by decide +kernel : ∀ t : Fin grid0.N, _)

/-! ## Reading the filled-out blocks at an index -/

/-- A filled-out block at an index inside the moved part is the block there, whatever fills the rest. -/
theorem fill_apply_of_lt {G : Pipeline.Grid} (w : Window sig G) (i : G.Coords) {α : Type} (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

/-- The argument arrays as launched, at their literal types. -/
abbrev argX (c : Dev nD) : XIdx → EReal := m ((c : Thread nD τ).loc main_arg0)
abbrev argW (c : Dev nD) : WIdx → BitVec 32 := m ((c : Thread nD τ).loc main_arg1)
abbrev argS (c : Dev nD) : GIdx → EReal := m ((c : Thread nD τ).loc main_arg2)
abbrev argZ (c : Dev nD) : GIdx → EReal := m ((c : Thread nD τ).loc main_arg3)
abbrev argB (c : Dev nD) : BIdx → EReal := m ((c : Thread nD τ).loc main_arg4)

/-- The blocks at a point, at their literal types. -/
abbrev xeB (c : Dev nD) (t : Fin cfg0.N) : Vec Ideal S32x2048 .bf16 := iblk m c 0 t
abbrev xoB (c : Dev nD) (t : Fin cfg0.N) : Vec Ideal S32x2048 .bf16 := iblk m c 1 t
abbrev xgB (c : Dev nD) (t : Fin cfg0.N) : Vec Ideal S32x32 .f32 := iblk m c 5 t

/-- The even columns of `x`: the whole array is the block at every point. -/
theorem xeB_apply (c : Dev nD) (t : Fin cfg0.N) (b : Fin 32) (p : Fin 2048) :
    xeB m c t (ix2 b p) = argX m c (ix2 b (evn p)) := by
  obtain ⟨e0, e1, -⟩ := grid_facts t
  refine Eq.trans ?_ (Cert.KernelIdeal.HostPrefix.V_xe m c b p)
  show V m c main_v3 (((cfg0.win 0).blk t).view.emb (ix2 b p)) = V m c main_v3 (ix2 b p)
  congr 1
  funext a; apply Fin.ext
  match a with
  | ⟨0, _⟩ => show win0_0.index t (0 : Fin 2) * 32 + 1 * b.val = b.val; omega
  | ⟨1, _⟩ => show win0_0.index t (1 : Fin 2) * 2048 + 1 * p.val = p.val; omega

theorem xoB_apply (c : Dev nD) (t : Fin cfg0.N) (b : Fin 32) (p : Fin 2048) :
    xoB m c t (ix2 b p) = argX m c (ix2 b (odd p)) := by
  obtain ⟨-, -, e0, e1, -⟩ := grid_facts t
  refine Eq.trans ?_ (Cert.KernelIdeal.HostPrefix.V_xo m c b p)
  show V m c main_v6 (((cfg0.win 1).blk t).view.emb (ix2 b p)) = V m c main_v6 (ix2 b p)
  congr 1
  funext a; apply Fin.ext
  match a with
  | ⟨0, _⟩ => show win0_1.index t (0 : Fin 2) * 32 + 1 * b.val = b.val; omega
  | ⟨1, _⟩ => show win0_1.index t (1 : Fin 2) * 2048 + 1 * p.val = p.val; omega

theorem xgB_apply (c : Dev nD) (t : Fin cfg0.N) (b : Fin 32) (g : Fin 32) :
    xgB m c t (ix2 b g) = 0 + (∑ j : Fin 128, argX m c (ix2 b (inGrp g j)) : EReal) := by
  obtain ⟨-, -, -, -, -, -, -, -, -, -, e0, e1, -⟩ := grid_facts t
  refine Eq.trans ?_ (Cert.KernelIdeal.HostPrefix.V_xg m c b g)
  show V m c main_v8 (((cfg0.win 5).blk t).view.emb (ix2 b g)) = V m c main_v8 (ix2 b g)
  congr 1
  funext a; apply Fin.ext
  match a with
  | ⟨0, _⟩ => show win0_5.index t (0 : Fin 2) * 32 + 1 * b.val = b.val; omega
  | ⟨1, _⟩ => show win0_5.index t (1 : Fin 2) * 32 + 1 * g.val = g.val; omega

/-! ## The cut blocks at an index inside the array, whatever fills the rest -/

/-- Row `o` of the weight block at point `t` is row `512 t + o` of the packed weight. -/
theorem wtB_apply (c : Dev nD) (t : Fin cfg0.N) (o : Fin 512) (ho : o.val < win0_7.xsize (grid0.coords t) (1 : Fin 2))
    (hO : t.val * 512 + o.val < 11008) (d : (cfg0.win 2).block.Idx → Elt Ideal (cfg0.win 2).elt) (p : Fin 2048) :
    ((cfg0.win 2).fill (cfg0.grid.coords t) d (iblk m c 2 t) : Vec Ideal S512x2048 .i32) (ix2 o p)
      = argW m c (ix2 ⟨t.val * 512 + o.val, hO⟩ p) := by
  obtain ⟨-, -, -, -, e0, e1, -⟩ := grid_facts t
  obtain ⟨x0, x1, -⟩ := cut_facts t
  have hm : ∀ a, ((ix2 o p : S512x2048.Idx) a).val < (cfg0.win 2).xsize (cfg0.grid.coords t) a := fun a => by
    match a with
    | ⟨0, _⟩ => show o.val < win0_2.xsize (grid0.coords t) (0 : Fin 2); omega
    | ⟨1, _⟩ => show p.val < win0_2.xsize (grid0.coords t) (1 : Fin 2); have := p.isLt; omega
  rw [fill_apply_of_lt (cfg0.win 2) (cfg0.grid.coords t) d (iblk m c 2 t) (ix2 o p) hm]
  refine Eq.trans ?_ (congrFun (V_main_arg1 m c) _)
  show V m c main_arg1 (((cfg0.win 2).blk t).view.emb _) = V m c main_arg1 (ix2 ⟨t.val * 512 + o.val, hO⟩ p)
  congr 1
  funext a; apply Fin.ext
  match a with
  | ⟨0, _⟩ => show win0_2.index t (0 : Fin 2) * 512 + 1 * o.val = t.val * 512 + o.val; omega
  | ⟨1, _⟩ => show win0_2.index t (1 : Fin 2) * 2048 + 1 * p.val = p.val; omega

/-- Row `o` of the scale block is row `512 t + o` of the scales; -/
theorem scB_apply (c : Dev nD) (t : Fin cfg0.N) (o : Fin 512) (ho : o.val < win0_7.xsize (grid0.coords t) (1 : Fin 2))
    (hO : t.val * 512 + o.val < 11008) (d : (cfg0.win 3).block.Idx → Elt Ideal (cfg0.win 3).elt) (g : Fin 32) :
    ((cfg0.win 3).fill (cfg0.grid.coords t) d (iblk m c 3 t) : Vec Ideal S512x32 .f32) (ix2 o g)
      = argS m c (ix2 ⟨t.val * 512 + o.val, hO⟩ g) := by
  obtain ⟨-, -, -, -, -, -, e0, e1, -⟩ := grid_facts t
  obtain ⟨-, -, x0, x1, -⟩ := cut_facts t
  have hm : ∀ a, ((ix2 o g : S512x32.Idx) a).val < (cfg0.win 3).xsize (cfg0.grid.coords t) a := fun a => by
    match a with
    | ⟨0, _⟩ => show o.val < win0_3.xsize (grid0.coords t) (0 : Fin 2); omega
    | ⟨1, _⟩ => show g.val < win0_3.xsize (grid0.coords t) (1 : Fin 2); have := g.isLt; omega
  rw [fill_apply_of_lt (cfg0.win 3) (cfg0.grid.coords t) d (iblk m c 3 t) (ix2 o g) hm]
  refine Eq.trans ?_ (congrFun (V_main_arg2 m c) _)
  show V m c main_arg2 (((cfg0.win 3).blk t).view.emb _) = V m c main_arg2 (ix2 ⟨t.val * 512 + o.val, hO⟩ g)
  congr 1
  funext a; apply Fin.ext
  match a with
  | ⟨0, _⟩ => show win0_3.index t (0 : Fin 2) * 512 + 1 * o.val = t.val * 512 + o.val; omega
  | ⟨1, _⟩ => show win0_3.index t (1 : Fin 2) * 32 + 1 * g.val = g.val; omega

/-- of the zero-point block, of the zero points; -/
theorem zpB_apply (c : Dev nD) (t : Fin cfg0.N) (o : Fin 512) (ho : o.val < win0_7.xsize (grid0.coords t) (1 : Fin 2))
    (hO : t.val * 512 + o.val < 11008) (d : (cfg0.win 4).block.Idx → Elt Ideal (cfg0.win 4).elt) (g : Fin 32) :
    ((cfg0.win 4).fill (cfg0.grid.coords t) d (iblk m c 4 t) : Vec Ideal S512x32 .f32) (ix2 o g)
      = argZ m c (ix2 ⟨t.val * 512 + o.val, hO⟩ g) := by
  obtain ⟨-, -, -, -, -, -, -, -, e0, e1, -⟩ := grid_facts t
  obtain ⟨-, -, -, -, x0, x1, -⟩ := cut_facts t
  have hm : ∀ a, ((ix2 o g : S512x32.Idx) a).val < (cfg0.win 4).xsize (cfg0.grid.coords t) a := fun a => by
    match a with
    | ⟨0, _⟩ => show o.val < win0_4.xsize (grid0.coords t) (0 : Fin 2); omega
    | ⟨1, _⟩ => show g.val < win0_4.xsize (grid0.coords t) (1 : Fin 2); have := g.isLt; omega
  rw [fill_apply_of_lt (cfg0.win 4) (cfg0.grid.coords t) d (iblk m c 4 t) (ix2 o g) hm]
  refine Eq.trans ?_ (congrFun (V_main_arg3 m c) _)
  show V m c main_arg3 (((cfg0.win 4).blk t).view.emb _) = V m c main_arg3 (ix2 ⟨t.val * 512 + o.val, hO⟩ g)
  congr 1
  funext a; apply Fin.ext
  match a with
  | ⟨0, _⟩ => show win0_4.index t (0 : Fin 2) * 512 + 1 * o.val = t.val * 512 + o.val; omega
  | ⟨1, _⟩ => show win0_4.index t (1 : Fin 2) * 32 + 1 * g.val = g.val; omega

/-- and entry `o` of the bias block is bias entry `512 t + o`. -/
theorem biB_apply (c : Dev nD) (t : Fin cfg0.N) (o : Fin 512) (ho : o.val < win0_7.xsize (grid0.coords t) (1 : Fin 2))
    (hO : t.val * 512 + o.val < 11008) (d : (cfg0.win 6).block.Idx → Elt Ideal (cfg0.win 6).elt) :
    ((cfg0.win 6).fill (cfg0.grid.coords t) d (iblk m c 6 t) : Vec Ideal S1x512 .f32) (ix2 (0 : Fin 1) o)
      = argB m c (ix1 ⟨t.val * 512 + o.val, hO⟩) := by
  obtain ⟨-, -, -, -, -, -, -, -, -, -, -, -, e0, e1, -⟩ := grid_facts t
  obtain ⟨-, -, -, -, -, -, x0, x1, -⟩ := cut_facts t
  have hm : ∀ a, ((ix2 (0 : Fin 1) o : S1x512.Idx) a).val < (cfg0.win 6).xsize (cfg0.grid.coords t) a := fun a => by
    match a with
    | ⟨0, _⟩ => show 0 < win0_6.xsize (grid0.coords t) (0 : Fin 2); omega
    | ⟨1, _⟩ => show o.val < win0_6.xsize (grid0.coords t) (1 : Fin 2); omega
  rw [fill_apply_of_lt (cfg0.win 6) (cfg0.grid.coords t) d (iblk m c 6 t) (ix2 (0 : Fin 1) o) hm]
  refine Eq.trans ?_ (Cert.KernelIdeal.HostPrefix.V_bias m c ⟨t.val * 512 + o.val, hO⟩)
  show V m c main_v9 (((cfg0.win 6).blk t).view.emb _) = V m c main_v9 (ix2 (0 : Fin 1) ⟨t.val * 512 + o.val, hO⟩)
  congr 1
  funext a; apply Fin.ext
  match a with
  | ⟨0, _⟩ => show win0_6.index t (0 : Fin 2) * 1 + 1 * 0 = 0; omega
  | ⟨1, _⟩ => show win0_6.index t (1 : Fin 2) * 512 + 1 * o.val = t.val * 512 + o.val; omega

/-! ## An entry of the result block inside the array is the split arrangement of the arguments -/

theorem entry_eq (c : Dev nD) (t : Fin cfg0.N) (d2 : (cfg0.win 2).block.Idx → Elt Ideal (cfg0.win 2).elt)
    (d3 : (cfg0.win 3).block.Idx → Elt Ideal (cfg0.win 3).elt) (d4 : (cfg0.win 4).block.Idx → Elt Ideal (cfg0.win 4).elt)
    (d6 : (cfg0.win 6).block.Idx → Elt Ideal (cfg0.win 6).elt) (b : Fin 32) (o : Fin 512)
    (ho : o.val < win0_7.xsize (grid0.coords t) (1 : Fin 2)) (hO : t.val * 512 + o.val < 11008) :
    blkEntry (xeB m c t) (xoB m c t) ((cfg0.win 2).fill (cfg0.grid.coords t) d2 (iblk m c 2 t))
        ((cfg0.win 3).fill (cfg0.grid.coords t) d3 (iblk m c 3 t)) ((cfg0.win 4).fill (cfg0.grid.coords t) d4 (iblk m c 4 t))
        (xgB m c t) ((cfg0.win 6).fill (cfg0.grid.coords t) d6 (iblk m c 6 t)) b o
      = kerEntry (argX m c) (argW m c) (argS m c) (argZ m c) (argB m c) b ⟨t.val * 512 + o.val, hO⟩ := by
  unfold blkEntry kerEntry
  simp only [xeB_apply, xoB_apply, xgB_apply, wtB_apply m c t o ho hO d2, scB_apply m c t o ho hO d3,
    zpB_apply m c t o ho hO d4, biB_apply m c t o ho hO d6]

theorem out_entry (c : Dev nD) (t : Fin cfg0.N) (d2 : (cfg0.win 2).block.Idx → Elt Ideal (cfg0.win 2).elt)
    (d3 : (cfg0.win 3).block.Idx → Elt Ideal (cfg0.win 3).elt) (d4 : (cfg0.win 4).block.Idx → Elt Ideal (cfg0.win 4).elt)
    (d6 : (cfg0.win 6).block.Idx → Elt Ideal (cfg0.win 6).elt) (b : Fin 32) (o : Fin 512)
    (ho : o.val < win0_7.xsize (grid0.coords t) (1 : Fin 2)) (hO : t.val * 512 + o.val < 11008) :
    outBlk (iblk m c 0 t) (iblk m c 1 t) ((cfg0.win 2).fill (cfg0.grid.coords t) d2 (iblk m c 2 t))
        ((cfg0.win 3).fill (cfg0.grid.coords t) d3 (iblk m c 3 t)) ((cfg0.win 4).fill (cfg0.grid.coords t) d4 (iblk m c 4 t))
        (iblk m c 5 t) ((cfg0.win 6).fill (cfg0.grid.coords t) d6 (iblk m c 6 t)) (ix2 b o)
      = kerEntry (argX m c) (argW m c) (argS m c) (argZ m c) (argB m c) b ⟨t.val * 512 + o.val, hO⟩ :=
  (outBlk_entry _ _ _ _ _ _ _ b o).trans (entry_eq m c t d2 d3 d4 d6 b o ho hO)

/-- An index of the result block's part inside the array, and where it sits in the array. -/
theorem xinj7 (t : Fin cfg0.N) (j : ((cfg0.win 7).xblock (cfg0.grid.coords t)).Idx) (hb : (j (0 : Fin 2)).val < 32)
    (ho : (j (1 : Fin 2)).val < 512) :
    (cfg0.win 7).xinj (cfg0.grid.coords t) j = (ix2 ⟨(j (0 : Fin 2)).val, hb⟩ ⟨(j (1 : Fin 2)).val, ho⟩ : S32x512.Idx) :=
  funext fun a => Fin.ext (by match a with | ⟨0, _⟩ => rfl | ⟨1, _⟩ => rfl)

theorem emb7 (t : Fin cfg0.N) (j : ((cfg0.win 7).xblock (cfg0.grid.coords t)).Idx) (hb : (j (0 : Fin 2)).val < 32)
    (hO : t.val * 512 + (j (1 : Fin 2)).val < 11008) :
    ((cfg0.win 7).blk t).view.emb j = (ix2 ⟨(j (0 : Fin 2)).val, hb⟩ ⟨t.val * 512 + (j (1 : Fin 2)).val, hO⟩ : S32x11008.Idx) := by
  obtain ⟨-, -, -, -, -, -, -, -, -, -, -, -, -, -, e0, e1⟩ := grid_facts t
  funext a; apply Fin.ext
  match a with
  | ⟨0, _⟩ => show win0_7.index t (0 : Fin 2) * 32 + 1 * (j (0 : Fin 2)).val = (j (0 : Fin 2)).val; omega
  | ⟨1, _⟩ => show win0_7.index t (1 : Fin 2) * 512 + 1 * (j (1 : Fin 2)).val = t.val * 512 + (j (1 : Fin 2)).val; omega

/-! ## Locality -/

theorem local_ok (c : Dev nD) : Local m c := by
  intro t d2 d3 d4 d6
  obtain ⟨-, -, -, -, -, -, -, -, x70, hle, h512, -, -⟩ := cut_facts t
  funext j
  have hb : (j (0 : Fin 2)).val < 32 := by
    have h := (j (0 : Fin 2)).isLt
    have h' : (j (0 : Fin 2)).val < win0_7.xsize (grid0.coords t) (0 : Fin 2) := h
    omega
  have ho' : (j (1 : Fin 2)).val < win0_7.xsize (grid0.coords t) (1 : Fin 2) := (j (1 : Fin 2)).isLt
  have ho : (j (1 : Fin 2)).val < 512 := by omega
  have hO : t.val * 512 + (j (1 : Fin 2)).val < 11008 := by omega
  dsimp only [Window.cut]
  rw [xinj7 t j hb ho]
  exact (out_entry m c t d2 d3 d4 d6 ⟨_, hb⟩ ⟨_, ho⟩ ho' hO).trans
    (out_entry m c t (fun _ => Classical.arbitrary _) (fun _ => Classical.arbitrary _) (fun _ => Classical.arbitrary _)
      (fun _ => Classical.arbitrary _) ⟨_, hb⟩ ⟨_, ho⟩ ho' hO).symm

/-! ## The result array -/

/-- The split arrangement of the arguments as launched. -/
def Kc (c : Dev nD) : OIdx → EReal := K (argX m c) (argW m c) (argS m c) (argZ m c) (argB m c)

/-- What point `t` writes back is block `t` of that array. -/
theorem flushed7_eq (c : Dev nD) (t : Fin cfg0.N) :
    (dats m 0 c).flushed 7 t = ((cfg0.win 7).blk t).view.read (Elt Ideal) (Kc m c) := by
  show (cfg0.win 7).cut (grid0.coords t) ((dats m 0 c).after 7 t) = _
  rw [after0_7]
  obtain ⟨-, -, -, -, -, -, -, -, x70, hle, h512, -, -⟩ := cut_facts t
  funext j
  have hb : (j (0 : Fin 2)).val < 32 := by
    have h := (j (0 : Fin 2)).isLt
    have h' : (j (0 : Fin 2)).val < win0_7.xsize (grid0.coords t) (0 : Fin 2) := h
    omega
  have ho' : (j (1 : Fin 2)).val < win0_7.xsize (grid0.coords t) (1 : Fin 2) := (j (1 : Fin 2)).isLt
  have ho : (j (1 : Fin 2)).val < 512 := by omega
  have hO : t.val * 512 + (j (1 : Fin 2)).val < 11008 := by omega
  show outAt m c t ((cfg0.win 7).xinj (cfg0.grid.coords t) j) = Kc m c (((cfg0.win 7).blk t).view.emb j)
  rw [xinj7 t j hb ho, emb7 t j hb hO]
  exact out_entry m c t _ _ _ _ ⟨_, hb⟩ ⟨_, ho⟩ ho' hO

/-- An index of the array is in point `t`'s block iff each coordinate is in the block's range, cut at the array's end. -/
theorem mem_blk7 (t : Fin cfg0.N) (i : S32x11008.Idx) :
    i ∈ ((cfg0.win 7).blk t).view.set ↔ ∀ a : Fin 2, win0_7.index t a * S32x512.size a ≤ (i a).val
      ∧ (i a).val < win0_7.index t a * S32x512.size a + win0_7.xsize (grid0.coords t) a := by
  show i ∈ ((View.whole main_v10).slice (win0_7.rect t)).set ↔ _
  rw [View.set_slice_whole, Rect.mem_set_unit]
  exact Iff.rfl

/-- Column `o` of the result is in the block of point `o / 512`. -/
theorem cover7 (i : S32x11008.Idx) : ∃ t : Fin cfg0.N, (cfg0.win 7).flush t = true ∧ i ∈ ((cfg0.win 7).blk t).view.set := by
  have hi0 : (i (0 : Fin 2)).val < 32 := (i (0 : Fin 2)).isLt
  have hi1 : (i (1 : Fin 2)).val < 11008 := (i (1 : Fin 2)).isLt
  have hN : (i (1 : Fin 2)).val / 512 < cfg0.N := by show _ < grid0.N; rw [N_0]; omega
  refine ⟨⟨(i (1 : Fin 2)).val / 512, hN⟩, flush0_7 _, ?_⟩
  obtain ⟨-, -, -, -, -, -, -, -, -, -, -, -, -, -, e0, e1⟩ := grid_facts ⟨(i (1 : Fin 2)).val / 512, hN⟩
  obtain ⟨-, -, -, -, -, -, -, -, x70, -, -, h512, h256⟩ := cut_facts ⟨(i (1 : Fin 2)).val / 512, hN⟩
  rw [mem_blk7]
  intro a
  match a with
  | ⟨0, _⟩ =>
    show win0_7.index ⟨(i (1 : Fin 2)).val / 512, hN⟩ (0 : Fin 2) * 32 ≤ (i (0 : Fin 2)).val
      ∧ (i (0 : Fin 2)).val < win0_7.index ⟨(i (1 : Fin 2)).val / 512, hN⟩ (0 : Fin 2) * 32 + win0_7.xsize (grid0.coords ⟨(i (1 : Fin 2)).val / 512, hN⟩) (0 : Fin 2)
    omega
  | ⟨1, _⟩ =>
    show win0_7.index ⟨(i (1 : Fin 2)).val / 512, hN⟩ (1 : Fin 2) * 512 ≤ (i (1 : Fin 2)).val
      ∧ (i (1 : Fin 2)).val < win0_7.index ⟨(i (1 : Fin 2)).val / 512, hN⟩ (1 : Fin 2) * 512 + win0_7.xsize (grid0.coords ⟨(i (1 : Fin 2)).val / 512, hN⟩) (1 : Fin 2)
    have e1' : win0_7.index ⟨(i (1 : Fin 2)).val / 512, hN⟩ (1 : Fin 2) = (i (1 : Fin 2)).val / 512 := e1
    rcases Nat.lt_or_ge ((i (1 : Fin 2)).val / 512) 21 with h | h
    · have := h512 h; omega
    · have h21 : (i (1 : Fin 2)).val / 512 = 21 := by omega
      have := h256 h21; omega

/-- The result array after the run: the split arrangement of the arguments. -/
theorem final7 (c : Dev nD) : (dats m 0 c).arrAt 7 cfg0.N = Kc m c :=
  (dats m 0 c).arrAt_eq_of_cover 7 (Kc m c) (fun t _ => flushed7_eq m c t) cover7

/-! ## The run, read -/

theorem run_value : θ_run defs (onTc (τ := τ) (main (F := Ideal))) ⟨m, fun _ => 0, ρ⟩ fun r => ∀ c : Dev nD,
      r.2.mem ((c.tc : Thread nD τ).loc main_v10) = Kc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 7).trans (final7 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans (V_main_arg4 m c)⟩)
    (run_main m ρ (local_ok m))

end Cert.KernelIdeal.KValue

end
-- ==== Proof.RefValue.lean ====
/-
  The reference program's result is the specification's first arrangement.

  The reference unpacks each word of the weight into two four-bit values, lays them side by side (the shifted word at
  input position `2p`, the masked word at `2p + 1`), regroups the 4096 positions of a row into 32 groups of 128, subtracts
  the group's zero point, multiplies by the group's scale, and contracts with the input row; the bias is added last.
  Read entry by entry, that is `refEntry`: at `(b, o)`, the sum over the input positions `k` of
  `x (b, k) * ((nibble (o, k) - zp (o, k / 128)) * sc (o, k / 128))`, plus `bias o`.
-/
import proofs.«410288_j28690381537821_3_alg».proof.Proof.Gen.ReferenceIdeal.Read
import proofs.«410288_j28690381537821_3_alg».proof.Proof.Spec

noncomputable section

open scoped BigOperators

namespace Cert.ReferenceIdeal.RefValue

open Cert.ReferenceIdeal Cert.ReferenceIdeal.Gen Cert.ReferenceIdeal.Read Cert.Int4Linear
open Idealize.ShloMosaic Idealize.ShloMosaic.ValueIdx Idealize.ShloMosaic.StableHlo
open Idealize.ShloMosaic.TcCoe Idealize.SL.Sem

/-! ## The two four-bit values of a word -/

/-- A shift by four is below the word's width, so the shift is the plain arithmetic shift on either unit. -/
theorem shrsi_four (w : BitVec 32) : IntOp.shrsi .host w 4#32 = IntOp.shrsi .vector w 4#32 := by
  unfold IntOp.shrsi
  rw [if_pos (by decide), if_pos (by decide)]

/-! ## The joined array: the shifted words and the masked words side by side -/

/-- Position `0` of the pair at `(o, p)` is the word shifted right by four. -/
theorem joined_zero (wp : IVec S11008x2048 32) (o : Fin 11008) (p : Fin 2048) :
    val_main_v6 (F := Ideal) wp (ix3 o p (0 : Fin 2)) = IntOp.shrsi .vector (wp (ix2 o p)) 4#32 := by
  unfold val_main_v6
  rw [concatenate_pair_apply_left (t := S11008x2048x2) (s₁ := S11008x2048x1) (s₂ := S11008x2048x1) _ _ _ _
    (ix3 o p (0 : Fin 2)) rfl (ix3 o p (0 : Fin 1))
    (fun b => match b with | ⟨0, _⟩ => rfl | ⟨1, _⟩ => rfl | ⟨2, _⟩ => rfl)]
  have e : idx_main_v4 (ix3 o p (0 : Fin 1)) = ix2 o p :=
    funext fun a => match a with | ⟨0, _⟩ => rfl | ⟨1, _⟩ => rfl
  rw [val_main_v4_apply, e, val_main_v1_apply, val_main_v0_apply, val_main_c_apply, shrsi_four]

/-- Position `1` of the pair at `(o, p)` is the word's low four bits. -/
theorem joined_one (wp : IVec S11008x2048 32) (o : Fin 11008) (p : Fin 2048) :
    val_main_v6 (F := Ideal) wp (ix3 o p (1 : Fin 2)) = IntOp.andi (wp (ix2 o p)) 15#32 := by
  unfold val_main_v6
  rw [concatenate_pair_apply_right (t := S11008x2048x2) (s₁ := S11008x2048x1) (s₂ := S11008x2048x1) _ _ _ _
    (ix3 o p (1 : Fin 2)) rfl rfl (ix3 o p (0 : Fin 1))
    (fun b => match b with
      | ⟨0, _⟩ => fun _ => rfl
      | ⟨1, _⟩ => fun _ => rfl
      | ⟨2, _⟩ => fun h => absurd rfl h)
    rfl]
  have e : idx_main_v5 (ix3 o p (0 : Fin 1)) = ix2 o p :=
    funext fun a => match a with | ⟨0, _⟩ => rfl | ⟨1, _⟩ => rfl
  rw [val_main_v5_apply, e, val_main_v3_apply, val_main_v2_apply, val_main_c_0_apply]

/-! ## The unpacked row: input position `k` comes from word `k / 2`, position `k % 2` of its pair -/

/-- The unpacked four-bit value at input position `k` of row `o`: the shifted word at an even position, the masked
    word at an odd one. (Row-major: position `k` of the 4096 is pair `k / 2`, place `k % 2`.) -/
theorem unpacked_apply (wp : IVec S11008x2048 32) (o : Fin 11008) (k : Fin 4096) :
    val_main_v7 (F := Ideal) wp (ix2 o k)
      = if k.val % 2 = 0 then IntOp.shrsi .vector (wp (ix2 o (half k))) 4#32
        else IntOp.andi (wp (ix2 o (half k))) 15#32 := by
  have hk : k.val < 4096 := k.isLt
  have ho : o.val < 11008 := o.isLt
  rw [val_main_v7_apply]
  by_cases h : k.val % 2 = 0
  · have e : idx_main_v7 (ix2 o k) = ix3 o (half k) (0 : Fin 2) :=
      funext fun a => Fin.ext (by
        match a with
        | ⟨0, _⟩ => show (o.val * 4096 + k.val) / 4096 = o.val; omega
        | ⟨1, _⟩ => show (o.val * 4096 + k.val) / 2 % 2048 = k.val / 2; omega
        | ⟨2, _⟩ => show (o.val * 4096 + k.val) % 2 = 0; omega)
    rw [e, joined_zero, if_pos h]
  · have e : idx_main_v7 (ix2 o k) = ix3 o (half k) (1 : Fin 2) :=
      funext fun a => Fin.ext (by
        match a with
        | ⟨0, _⟩ => show (o.val * 4096 + k.val) / 4096 = o.val; omega
        | ⟨1, _⟩ => show (o.val * 4096 + k.val) / 2 % 2048 = k.val / 2; omega
        | ⟨2, _⟩ => show (o.val * 4096 + k.val) % 2 = 1; omega)
    rw [e, joined_one, if_neg h]

/-! ## The dequantized weight at `(o, k)` -/

/-- Input position `k` lies in group `k / 128` at place `k % 128`; the group's zero point is subtracted from the
    unpacked value (read as a real) and the result multiplied by the group's scale. -/
theorem dequant_apply (wp : IVec S11008x2048 32) (sc zp : FVec Ideal S11008x32 .f32) (o : Fin 11008) (k : Fin 4096) :
    val_main_v16 (F := Ideal) wp sc zp (ix2 o k)
      = (nib wp o k - zp (ix2 o (grpK k))) * sc (ix2 o (grpK k)) := by
  have hk : k.val < 4096 := k.isLt
  have ho : o.val < 11008 := o.isLt
  have hj : k.val % 128 < 128 := Nat.mod_lt _ (by decide)
  -- the position `(o, k)` of the flat row is `(o, k / 128, k % 128)` of the grouped array, and back
  have e16 : idx_main_v16 (ix2 o k) = ix3 o (grpK k) (⟨k.val % 128, hj⟩ : Fin 128) :=
    funext fun a => Fin.ext (by
      match a with
      | ⟨0, _⟩ => show (o.val * 4096 + k.val) / 4096 = o.val; omega
      | ⟨1, _⟩ => show (o.val * 4096 + k.val) / 128 % 32 = k.val / 128; omega
      | ⟨2, _⟩ => show (o.val * 4096 + k.val) % 128 = k.val % 128; omega)
  have e8 : idx_main_v8 (ix3 o (grpK k) (⟨k.val % 128, hj⟩ : Fin 128)) = ix2 o k :=
    funext fun a => Fin.ext (by
      match a with
      | ⟨0, _⟩ => show ((o.val * 32 + k.val / 128) * 128 + k.val % 128) / 4096 = o.val; omega
      | ⟨1, _⟩ => show ((o.val * 32 + k.val / 128) * 128 + k.val % 128) % 4096 = k.val; omega)
  -- a group's zero point and scale are the same at every place of the group
  have e11 : idx_main_v10 (idx_main_v11 (ix3 o (grpK k) (⟨k.val % 128, hj⟩ : Fin 128))) = ix2 o (grpK k) :=
    funext fun a => match a with | ⟨0, _⟩ => rfl | ⟨1, _⟩ => rfl
  have e14 : idx_main_v13 (idx_main_v14 (ix3 o (grpK k) (⟨k.val % 128, hj⟩ : Fin 128))) = ix2 o (grpK k) :=
    funext fun a => match a with | ⟨0, _⟩ => rfl | ⟨1, _⟩ => rfl
  rw [val_main_v16_apply, e16, val_main_v15_apply, val_main_v12_apply, val_main_v9_apply, val_main_v8_apply, e8,
    unpacked_apply, val_main_v11_apply, val_main_v10_apply, e11, val_main_v14_apply, val_main_v13_apply, e14]
  unfold nib hi lo
  by_cases h : k.val % 2 = 0
  · rw [if_pos h, if_pos h]; rfl
  · rw [if_neg h, if_neg h]; rfl

/-! ## The result, entry by entry -/

/-- The reference's result term is the specification's first arrangement of its five argument arrays. -/
theorem ref_is_G (x : FVec Ideal S32x4096 .f32) (wp : IVec S11008x2048 32) (sc zp : FVec Ideal S11008x32 .f32)
    (bias : FVec Ideal S11008 .f32) :
    val_main_v21 (F := Ideal) x wp sc zp bias = G x wp sc zp bias := by
  funext i
  obtain ⟨b, o, rfl⟩ : ∃ (b : Fin 32) (o : Fin 11008), i = ix2 b o := ⟨i 0, i 1, eq_ix2 i⟩
  -- the bias of output column `o` is broadcast down the rows
  have eb : idx_main_v19 (idx_main_v20 (ix2 b o)) = ix1 o :=
    funext fun a => match a with | ⟨0, _⟩ => rfl
  rw [val_main_v21_apply, val_main_v18_apply, val_main_v20_apply, val_main_v19_apply, eb, Ideal.addf_def]
  show _ = refEntry x wp sc zp bias b o
  unfold refEntry
  congr 1
  refine Finset.sum_congr rfl fun k _ => ?_
  -- term `k` of the contraction: row `b` of the input at `k`, against row `o` of the dequantized weight at `k`
  have el : lidx_main_v18 (ix2 b o) k = ix2 b k :=
    funext fun a => match a with | ⟨0, _⟩ => rfl | ⟨1, _⟩ => rfl
  have er : idx_main_v17 (ridx_main_v18 (ix2 b o) k) = ix2 o k :=
    funext fun a => match a with | ⟨0, _⟩ => rfl | ⟨1, _⟩ => rfl
  rw [el, val_main_v17_apply, er, dequant_apply]

/-! ## The same, for the term the reference's run states -/

/-- The composed term of the reference's operations over five argument arrays is the specification of them. -/
theorem term_is_G (x0 : FVec Ideal S32x4096 .f32) (x1 : IVec S11008x2048 32) (x2 x3 : FVec Ideal S11008x32 .f32)
    (x4 : FVec Ideal S11008 .f32) :
    addf (Host.dotGeneral dot_S32x4096_S4096x11008_S32x11008_1_0_0_1_n_n none (x0) (transpose S4096x11008 [1, 0] (shapeCast _ (mulf (subf (sitofp .f32 (shapeCast _ (shapeCast _ (concatenate S11008x2048x2 2 [⟨S11008x2048x1, (broadcastInDim S11008x2048x1 ![0, 1] bcast_S11008x2048_S11008x2048x1_0_1 (Host.shrsi (x1) (broadcastInDim S11008x2048 ![] bcast_S_S11008x2048 (constantI S_ 32 4#32))))⟩, ⟨S11008x2048x1, (broadcastInDim S11008x2048x1 ![0, 1] bcast_S11008x2048_S11008x2048x1_0_1 (andi (x1) (broadcastInDim S11008x2048 ![] bcast_S_S11008x2048 (constantI S_ 32 15#32))))⟩] concatenates_S11008x2048x1_S11008x2048x1_S11008x2048x2_d2) shapeCasts_S11008x2048x2_S11008x4096) shapeCasts_S11008x4096_S11008x32x128)) (broadcastInDim S11008x32x128 ![0, 1, 2] bcast_S11008x32x1_S11008x32x128_0_1_2 (broadcastInDim S11008x32x1 ![0, 1] bcast_S11008x32_S11008x32x1_0_1 (x3)))) (broadcastInDim S11008x32x128 ![0, 1, 2] bcast_S11008x32x1_S11008x32x128_0_1_2 (broadcastInDim S11008x32x1 ![0, 1] bcast_S11008x32_S11008x32x1_0_1 (x2)))) shapeCasts_S11008x32x128_S11008x4096) transposes_S11008x4096_S4096x11008_1_0)) (broadcastInDim S32x11008 ![0, 1] bcast_S1x11008_S32x11008_0_1 (broadcastInDim S1x11008 ![1] bcast_S11008_S1x11008_1 (x4)))
      = G x0 x1 x2 x3 x4 :=
  (val_main_v21_eq (F := Ideal) x0 x1 x2 x3 x4).trans (ref_is_G x0 x1 x2 x3 x4)

/-- On a device, from the memory the reference is launched in: the result the run states is the specification of the
    five arguments' launch contents (the third argument is the scale, the fourth the zero point). -/
theorem post_is_G (m : (ℓ : Loc nD τ sig) → Buf (Elt Ideal) ℓ) (c : Dev nD) :
    (addf (Host.dotGeneral (φ₁ := .f32) dot_S32x4096_S4096x11008_S32x11008_1_0_0_1_n_n none (m ((c.tc : Thread nD τ).loc main_arg0)) (transpose S4096x11008 [1, 0] (shapeCast _ (mulf (subf (sitofp .f32 (shapeCast _ (shapeCast _ (concatenate S11008x2048x2 2 [⟨S11008x2048x1, (broadcastInDim S11008x2048x1 ![0, 1] bcast_S11008x2048_S11008x2048x1_0_1 (Host.shrsi (m ((c.tc : Thread nD τ).loc main_arg1)) (broadcastInDim S11008x2048 ![] bcast_S_S11008x2048 (constantI S_ 32 4#32))))⟩, ⟨S11008x2048x1, (broadcastInDim S11008x2048x1 ![0, 1] bcast_S11008x2048_S11008x2048x1_0_1 (andi (m ((c.tc : Thread nD τ).loc main_arg1)) (broadcastInDim S11008x2048 ![] bcast_S_S11008x2048 (constantI S_ 32 15#32))))⟩] concatenates_S11008x2048x1_S11008x2048x1_S11008x2048x2_d2) shapeCasts_S11008x2048x2_S11008x4096) shapeCasts_S11008x4096_S11008x32x128)) (broadcastInDim S11008x32x128 ![0, 1, 2] bcast_S11008x32x1_S11008x32x128_0_1_2 (broadcastInDim S11008x32x1 ![0, 1] bcast_S11008x32_S11008x32x1_0_1 (m ((c.tc : Thread nD τ).loc main_arg3))))) (broadcastInDim S11008x32x128 ![0, 1, 2] bcast_S11008x32x1_S11008x32x128_0_1_2 (broadcastInDim S11008x32x1 ![0, 1] bcast_S11008x32_S11008x32x1_0_1 (m ((c.tc : Thread nD τ).loc main_arg2))))) shapeCasts_S11008x32x128_S11008x4096) transposes_S11008x4096_S4096x11008_1_0)) (broadcastInDim S32x11008 ![0, 1] bcast_S1x11008_S32x11008_0_1 (broadcastInDim S1x11008 ![1] bcast_S11008_S1x11008_1 (m ((c.tc : Thread nD τ).loc main_arg4))))
        : FVec Ideal S32x11008 .f32)
      = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  term_is_G _ _ _ _ _

end Cert.ReferenceIdeal.RefValue

end
-- ==== Proof.Law.lean ====
/-
  The two arrangements of the four-bit linear layer agree entry by entry when the inputs, scales and zero
  points are reals.

  Over the reals the dot product over the 4096 input positions splits into its even and its odd positions
  (position `2p` and `2p + 1` both come from packed word `p` and lie in group `p / 64`), and the zero-point
  part of the dequantized weight regroups into 32 blocks of 128 positions, each block contributing the
  block's sum of `x` times `sc * zp`. On the extended reals every term is the coercion of a real, so the
  identity transfers through the coercion.
-/
import proofs.«410288_j28690381537821_3_alg».proof.Proof.Spec
import Mathlib.Data.EReal.Operations
import Mathlib.Algebra.BigOperators.Fin
import Mathlib.Algebra.BigOperators.Ring.Finset
import Mathlib.Tactic.Ring

noncomputable section

open scoped BigOperators

namespace Cert.Int4Linear

open Idealize.ShloMosaic Idealize.ShloMosaic.ValueIdx

/-- The coercion of a finite real sum is the sum of the coercions. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Input positions as pairs (packed word, parity): `k = 2p + e`. -/
def splitEquiv : Fin 2048 × Fin 2 ≃ Fin 4096 where
  toFun pe := ⟨2 * pe.1.val + pe.2.val, by have := pe.1.isLt; have := pe.2.isLt; omega⟩
  invFun k := (⟨k.val / 2, by have := k.isLt; omega⟩, ⟨k.val % 2, by omega⟩)
  left_inv := by
    rintro ⟨p, e⟩
    have := e.isLt
    ext <;> simp <;> omega
  right_inv := by
    intro k
    ext
    simp
    omega

/-- Input positions as pairs (group, position in the group): `k = 128 g + j`. -/
def groupEquiv : Fin 32 × Fin 128 ≃ Fin 4096 where
  toFun gj := ⟨128 * gj.1.val + gj.2.val, by have := gj.1.isLt; have := gj.2.isLt; omega⟩
  invFun k := (⟨k.val / 128, by have := k.isLt; omega⟩, ⟨k.val % 128, by omega⟩)
  left_inv := by
    rintro ⟨g, j⟩
    have := j.isLt
    ext <;> simp <;> omega
  right_inv := by
    intro k
    ext
    simp
    omega

/-- A sum over the input positions is the sum over the even plus the sum over the odd positions. -/
theorem sum_even_odd (f : Fin 4096 → ℝ) :
    ∑ k, f k = ∑ p, f (evn p) + ∑ p, f (odd p) := by
  rw [← Equiv.sum_comp splitEquiv f, Fintype.sum_prod_type, ← Finset.sum_add_distrib]
  refine Finset.sum_congr rfl fun p _ => ?_
  rw [Fin.sum_univ_two]
  rfl

/-- A sum over the input positions is the sum over the groups of the sums over each group. -/
theorem sum_groups (f : Fin 4096 → ℝ) :
    ∑ k, f k = ∑ g, ∑ j, f (inGrp g j) := by
  rw [← Equiv.sum_comp groupEquiv f, Fintype.sum_prod_type]
  rfl

theorem half_evn (p : Fin 2048) : half (evn p) = p := by ext; simp [half, evn]
theorem half_odd (p : Fin 2048) : half (odd p) = p := by ext; simp [half, odd]; omega
theorem grpK_evn (p : Fin 2048) : grpK (evn p) = grpP p := by ext; simp [grpK, grpP, evn]; omega
theorem grpK_odd (p : Fin 2048) : grpK (odd p) = grpP p := by ext; simp [grpK, grpP, odd]; omega
theorem grpK_inGrp (g : Fin 32) (j : Fin 128) : grpK (inGrp g j) = g := by
  ext; simp [grpK, inGrp]; omega

/-- The identity over the reals, with the four-bit values given per input position. -/
theorem real_identity (X N : Fin 4096 → ℝ) (H L : Fin 2048 → ℝ) (S Z : Fin 32 → ℝ)
    (hE : ∀ p, N (evn p) = H p) (hO : ∀ p, N (odd p) = L p) :
    (∑ p, X (evn p) * (H p * S (grpP p)) + ∑ p, X (odd p) * (L p * S (grpP p)))
        - ∑ g, (∑ j, X (inGrp g j)) * (S g * Z g)
      = ∑ k, X k * ((N k - Z (grpK k)) * S (grpK k)) := by
  have h1 : ∑ k, X k * ((N k - Z (grpK k)) * S (grpK k))
      = ∑ k, X k * (N k * S (grpK k)) - ∑ k, X k * (S (grpK k) * Z (grpK k)) := by
    rw [← Finset.sum_sub_distrib]
    refine Finset.sum_congr rfl fun k _ => ?_
    ring
  rw [h1, sum_even_odd (fun k => X k * (N k * S (grpK k))),
    sum_groups (fun k => X k * (S (grpK k) * Z (grpK k)))]
  simp only [hE, hO, grpK_evn, grpK_odd, grpK_inGrp, Finset.sum_mul]

/-- The high and the low four-bit value of a packed word, as reals. -/
def hiR (w : BitVec 32) : ℝ := ((IntOp.shrsi .vector w 4#32).toInt : ℝ)
def loR (w : BitVec 32) : ℝ := ((IntOp.andi w 15#32).toInt : ℝ)

/-- The unpacked four-bit value at input position `k` of row `o`, as a real. -/
def nibR (wp : WIdx → BitVec 32) (o : Fin 11008) (k : Fin 4096) : ℝ :=
  if k.val % 2 = 0 then hiR (wp (ix2 o (half k))) else loR (wp (ix2 o (half k)))

theorem hi_eq (w : BitVec 32) : hi w = ((hiR w : ℝ) : EReal) := rfl
theorem lo_eq (w : BitVec 32) : lo w = ((loR w : ℝ) : EReal) := rfl

theorem nib_eq (wp : WIdx → BitVec 32) (o : Fin 11008) (k : Fin 4096) :
    nib wp o k = ((nibR wp o k : ℝ) : EReal) := by
  unfold nib nibR
  split <;> rfl

theorem nibR_evn (wp : WIdx → BitVec 32) (o : Fin 11008) (p : Fin 2048) :
    nibR wp o (evn p) = hiR (wp (ix2 o p)) := by
  have h : (evn p).val % 2 = 0 := by
    show (2 * p.val) % 2 = 0
    omega
  unfold nibR
  rw [if_pos h, half_evn]

theorem nibR_odd (wp : WIdx → BitVec 32) (o : Fin 11008) (p : Fin 2048) :
    nibR wp o (odd p) = loR (wp (ix2 o p)) := by
  have h : ¬ (odd p).val % 2 = 0 := by
    show ¬ (2 * p.val + 1) % 2 = 0
    omega
  unfold nibR
  rw [if_neg h, half_odd]

/-- With real inputs, scales and zero points the split arrangement equals the dequantize-then-multiply
  arrangement at every entry: both sides are coercions of reals, and the reals agree by `real_identity`. -/
theorem kerEntry_eq_refEntry (x : XIdx → EReal) (wp : WIdx → BitVec 32) (sc zp : GIdx → EReal)
    (bias : BIdx → EReal)
    (hx : ∀ i, ∃ r : ℝ, x i = (r : EReal)) (hs : ∀ i, ∃ r : ℝ, sc i = (r : EReal))
    (hz : ∀ i, ∃ r : ℝ, zp i = (r : EReal))
    (b : Fin 32) (o : Fin 11008) : kerEntry x wp sc zp bias b o = refEntry x wp sc zp bias b o := by
  choose xr hxr using hx
  choose sr hsr using hs
  choose zr hzr using hz
  unfold kerEntry refEntry
  congr 1
  simp only [hxr, hsr, hzr, nib_eq, hi_eq, lo_eq, zero_add, ← EReal.coe_mul, ← EReal.coe_add,
    ← EReal.coe_sub, ← coe_sum_real]
  congr 1
  exact real_identity (fun k => xr (ix2 b k)) (nibR wp o) (fun p => hiR (wp (ix2 o p)))
    (fun p => loR (wp (ix2 o p))) (fun g => sr (ix2 o g)) (fun g => zr (ix2 o g))
    (nibR_evn wp o) (nibR_odd wp o)

/-- The two result arrays agree. -/
theorem K_eq_G (x : XIdx → EReal) (wp : WIdx → BitVec 32) (sc zp : GIdx → EReal) (bias : BIdx → EReal)
    (hx : ∀ i, ∃ r : ℝ, x i = (r : EReal)) (hs : ∀ i, ∃ r : ℝ, sc i = (r : EReal))
    (hz : ∀ i, ∃ r : ℝ, zp i = (r : EReal)) : K x wp sc zp bias = G x wp sc zp bias := by
  funext i
  exact kerEntry_eq_refEntry x wp sc zp bias hx hs hz _ _

end Cert.Int4Linear

end
-- ==== Proof.Finite.lean ====
/-
  From the printed precondition to "every float entry is a real".

  The precondition is the conjunction of four statements, one per float array: every entry's absolute value
  is below the word `0x7F800000`, which denotes `+∞`. On the extended reals the absolute value of `v` is
  `max v (-v)`, so `max v (-v) < ⊤` excludes both `v = ⊤` and `v = ⊥`, and what is left is a real.
-/
import proofs.«410288_j28690381537821_3_alg».proof.Pre_finite_inputs
import proofs.«410288_j28690381537821_3_alg».proof.Proof.Gen.Pre_finite_inputs
import Idealize.ShloMosaic.Lib.ReduceAll
import Idealize.ShloMosaic.Lib.ValueIdx
import Idealize.ShloMosaic.PureOps.Ideal.Laws
import Mathlib.Data.EReal.Operations

noncomputable section

namespace Cert.Int4Linear.Finite

open Idealize.ShloMosaic

/-- The result of a reduction over all axes has one index. -/
instance : Subsingleton Cert.Pre_finite_inputs.S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value is below `+∞` is a real. -/
theorem real_of_abs_lt (v : EReal)
    (h : Ideal.cmp .olt (max v (-v)) (Ideal.ofBits .f32 0x7F800000#32) = 1#1) :
    ∃ r : ℝ, v = (r : EReal) := by
  rw [inf_word] at h
  have hlt : max v (-v) < ⊤ := by
    by_contra hn
    simp [Ideal.cmp, hn] at h
  have h1 : v < ⊤ := lt_of_le_of_lt (le_max_left _ _) hlt
  have h2 : -v < ⊤ := lt_of_le_of_lt (le_max_right _ _) hlt
  refine ⟨v.toReal, (EReal.coe_toReal h1.ne ?_).symm⟩
  intro hb
  rw [hb] at h2
  simp at h2

/-- Under the printed precondition every entry of the four float arrays is a real. -/
theorem finite_of_pre [Cert.Pre_finite_inputs.Facts]
    (x : FVec Ideal Cert.Pre_finite_inputs.S32x4096 .f32) (wp : IVec Cert.Pre_finite_inputs.S11008x2048 32)
    (sc zp : FVec Ideal Cert.Pre_finite_inputs.S11008x32 .f32) (bias : FVec Ideal Cert.Pre_finite_inputs.S11008 .f32)
    (h : Cert.Pre_finite_inputs.fn (F := Ideal) x wp sc zp bias = fun _ => 1#1) :
    (∀ i, ∃ r : ℝ, x i = (r : EReal)) ∧ (∀ i, ∃ r : ℝ, sc i = (r : EReal))
      ∧ (∀ i, ∃ r : ℝ, zp i = (r : EReal)) ∧ (∀ i, ∃ r : ℝ, bias i = (r : EReal)) := by
  have h0 := congrFun h ValueIdx.ix0
  dsimp only [Cert.Pre_finite_inputs.fn, Cert.Pre_finite_inputs.fn_part1] at h0
  simp only [andi, IntOp.andi_eq_one] at h0
  obtain ⟨⟨⟨hx, hs⟩, hz⟩, hb⟩ := h0
  refine ⟨fun i => ?_, fun i => ?_, fun i => ?_, fun i => ?_⟩
  · exact real_of_abs_lt _ (Host.reduce_andi_all _ _ _ _ _ hx i)
  · exact real_of_abs_lt _ (Host.reduce_andi_all _ _ _ _ _ hs i)
  · exact real_of_abs_lt _ (Host.reduce_andi_all _ _ _ _ _ hz i)
  · exact real_of_abs_lt _ (Host.reduce_andi_all _ _ _ _ _ hb i)

end Cert.Int4Linear.Finite

end
-- ==== Proof.lean ====
/-
  A linear layer with four-bit weights, packed two to a word and dequantized per group of 128 input positions:
  the kernel against its reference, over the extended reals.

  The reference unpacks each word of the packed weight into its high and low four-bit values, subtracts the group's zero
  point, multiplies by the group's scale, and takes the product of `x` with the transposed weight, plus the bias. The
  kernel walks the 11008 output columns in 22 blocks of 512 (the last one holding 256 columns of the arrays). Per block it
  multiplies the even columns of `x` with the scaled high values and the odd columns with the scaled low values, and takes
  the zero points out as one small product: the per-group sums of `x` against scale times zero point. On finite inputs the
  two arrangements are one real number at every entry: the sum over the 4096 input positions splits into even and odd
  positions, and `x · ((n − z) · s)` summed over a group is the group's `x · (n · s)` less `(Σ x) · (s · z)`. That uses
  distributivity, which is why the finiteness of `x`, the scales and the zero points is read out of the precondition.

  The three frames: the word-level kernel's by its run with the result window's contents left unnamed; the idealized
  kernel's and the reference's from their runs to named results. No rewrite was applied when the kernel was idealized, so
  the preservation conjunct is trivial.
-/
import proofs.«410288_j28690381537821_3_alg».proof.Defs
import proofs.«410288_j28690381537821_3_alg».proof.Proof.Gen.Kernel
import proofs.«410288_j28690381537821_3_alg».proof.Proof.Gen.KernelIdeal
import proofs.«410288_j28690381537821_3_alg».proof.Proof.Gen.ReferenceIdeal
import proofs.«410288_j28690381537821_3_alg».proof.Proof.Gen.ReferenceIdeal.Run
import proofs.«410288_j28690381537821_3_alg».proof.Proof.Gen.ReferenceIdeal.Read
import proofs.«410288_j28690381537821_3_alg».proof.Proof.Gen.Pre_finite_inputs
import proofs.«410288_j28690381537821_3_alg».proof.Proof.FrameBits
import proofs.«410288_j28690381537821_3_alg».proof.Proof.KernelValue
import proofs.«410288_j28690381537821_3_alg».proof.Proof.RefValue
import proofs.«410288_j28690381537821_3_alg».proof.Proof.Law
import proofs.«410288_j28690381537821_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end and leaves its five arguments as they were. -/
theorem frame_kernel : Cert.frame_Kernel := fun m ρ _ => Cert.Kernel.Run.frame m ρ

/-- So does the idealized kernel: its run to a named result, the result dropped. -/
theorem frame_kernelIdeal : Cert.frame_KernelIdeal := fun m ρ _ =>
  (θ_run Cert.KernelIdeal.defs _ _).mono (fun _ h c => (h c).2) (Cert.KernelIdeal.KValue.run_value m ρ)

/-- And the reference: a straight line of host operations. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs the kernel's result array (the split arrangement of the arguments) and the reference's (the
    dequantize-then-multiply arrangement) are equal entry by entry. -/
theorem algebraic : Cert.algebraic_KernelIdeal_ReferenceIdeal := by
  intro m ρ m' ρ' hpre hagree
  refine ⟨fun c => Cert.KernelIdeal.KValue.Kc m c, Cert.KernelIdeal.KValue.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.RefValue.post_is_G, (hagree c).1, (hagree c).2.1, (hagree c).2.2.1, (hagree c).2.2.2.1,
    (hagree c).2.2.2.2]
  obtain ⟨hx, hs, hz, -⟩ := Cert.Int4Linear.Finite.finite_of_pre _ _ _ _ _ (hpre c)
  exact (Cert.Int4Linear.K_eq_G _ _ _ _ _ hx hs hz).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
